-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x9 : Shape := ⟨2, ![500000, 9]⟩
abbrev S3x256 : Shape := ⟨2, ![3, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S_ : Shape := ⟨0, ![]⟩

class Facts : Prop where
  bcast_S_S500000x9 : S_.BroadcastsInDim S500000x9 (![] : Fin 0 → Fin S500000x9.rank)
  reducesTo_S500000x9_S_d0_1 : S500000x9.ReducesTo [0, 1] S_
  h_S_ : 0 < S_.numel
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S256 .f32) (main_arg5 : FVec F S256x3 .f32) (main_arg6 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x3 .f32 := Host.absf main_arg5
  let main_cst_8 : FVec F S_ .f32 := constant S_ .f32 0x7F800000#32
  let main_v25 : FVec F S256x3 .f32 := broadcastInDim S256x3 ![] bcast_S_S256x3 main_cst_8
  let main_v26 : IVec S256x3 1 := cmpf .olt main_v24 main_v25
  let main_c_9 : IVec S_ 1 := constantI S_ 1 1#1
  let main_v27 : IVec S_ 1 := (fun x v => Host.reduce IntOp.andi x v reducesTo_S256x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S500000x9 .f32) (main_arg1 : FVec F S3x256 .f32) (main_arg2 : FVec F S256 .f32) (main_arg3 : FVec F S256x256 .f32) (main_arg4 : FVec F S256 .f32) (main_arg5 : FVec F S256x3 .f32) (main_arg6 : FVec F S3 .f32) : IVec S_ 1 :=
  let main_v0 : FVec F S500000x9 .f32 := Host.absf main_arg0
  let main_cst : FVec F S_ .f32 := constant S_ .f32 0x7F800000#32
  let main_v1 : FVec F S500000x9 .f32 := broadcastInDim S500000x9 ![] bcast_S_S500000x9 main_cst
  let main_v2 : IVec S500000x9 1 := cmpf .olt main_v0 main_v1
  let main_c : IVec S_ 1 := constantI S_ 1 1#1
  let main_v3 : IVec S_ 1 := (fun x v => Host.reduce IntOp.andi x v reducesTo_S500000x9_S_d0_1 h_S_) main_v2 main_c
  let main_v4 : FVec F S3x256 .f32 := Host.absf main_arg1
  let main_cst_0 : FVec F S_ .f32 := constant S_ .f32 0x7F800000#32
  let main_v5 : FVec F S3x256 .f32 := broadcastInDim S3x256 ![] bcast_S_S3x256 main_cst_0
  let main_v6 : IVec S3x256 1 := cmpf .olt main_v4 main_v5
  let main_c_1 : IVec S_ 1 := constantI S_ 1 1#1
  let main_v7 : IVec S_ 1 := (fun x v => Host.reduce IntOp.andi x v reducesTo_S3x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S500000x9 : Shape := ⟨2, ![500000, 9]⟩
abbrev S3x256 : Shape := ⟨2, ![3, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S500000x2 : Shape := ⟨2, ![500000, 2]⟩
abbrev S2000x9 : Shape := ⟨2, ![2000, 9]⟩
abbrev S2000x2 : Shape := ⟨2, ![2000, 2]⟩
abbrev S2000x3 : Shape := ⟨2, ![2000, 3]⟩
abbrev S2000 : Shape := ⟨1, ![2000]⟩
abbrev S2000x1 : Shape := ⟨2, ![2000, 1]⟩
abbrev S2000x256 : Shape := ⟨2, ![2000, 256]⟩
abbrev S1x256 : Shape := ⟨2, ![1, 256]⟩
abbrev S1x3 : Shape := ⟨2, ![1, 3]⟩

abbrev nBuf : Space → Nat
  | .hbm => 8
  | .vmem => 10
  | .smem => 0
  | _ => 0

abbrev bufTy : (tb : Table) → Fin (tcTables nBuf tb) → BufTy
  | .hbm, ⟨0, _⟩ => ⟨S500000x9, .f32⟩
  | .hbm, ⟨1, _⟩ => ⟨S3x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x3, .f32⟩
  | .hbm, ⟨6, _⟩ => ⟨S3, .f32⟩
  | .hbm, ⟨7, _⟩ => ⟨S500000x2, .f32⟩
  | .local _ .vmem, ⟨0, _⟩ => ⟨S2000x9, .f32⟩
  | .local _ .vmem, ⟨1, _⟩ => ⟨S2000x9, .f32⟩
  | .local _ .vmem, ⟨2, _⟩ => ⟨S3x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x3, .f32⟩
  | .local _ .vmem, ⟨7, _⟩ => ⟨S3, .f32⟩
  | .local _ .vmem, ⟨8, _⟩ => ⟨S2000x2, .f32⟩
  | .local _ .vmem, ⟨9, _⟩ => ⟨S2000x2, .f32⟩
  | _, _ => ⟨S500000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S2000x9_S2000x9_0_0 : ∀ a, (![0, 0] : Fin 2 → Nat) a + S2000x9.size a ≤ S2000x9.size a
  h_S2000x9 : 0 < S2000x9.numel
  slices_S2000x9_o0_0_S2000x3 : S2000x9.Slices ![0, 0] S2000x3
  slices_S2000x9_o0_3_S2000x3 : S2000x9.Slices ![0, 3] S2000x3
  slices_S2000x9_o0_6_S2000x3 : S2000x9.Slices ![0, 6] S2000x3
  reduces_S2000x3_S2000 : S2000x3.Reduces [1] S2000
  shapeCasts_S2000_S2000x1 : S2000.ShapeCasts S2000x1
  concatenates_S2000x1_S2000x1_S2000x1_S2000x3_d1 : Shape.Concatenates [S2000x1, S2000x1, S2000x1] S2000x3 1
  bitsLt_bf16_f32 : FTy.bits .bf16 < FTy.bits .f32
  inb_S3x256_S3x256_0_0 : ∀ a, (![0, 0] : Fin 2 → Nat) a + S3x256.size a ≤ S3x256.size a
  h_S3x256 : 0 < S3x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x3_S256x3_0_0 : ∀ a, (![0, 0] : Fin 2 → Nat) a + S256x3.size a ≤ S256x3.size a
  h_S256x3 : 0 < S256x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  concatenates_S2000x1_S2000x1_S2000x2_d1 : Shape.Concatenates [S2000x1, S2000x1] S2000x2 1
  inb_S2000x2_S2000x2_0_0 : ∀ a, (![0, 0] : Fin 2 → Nat) a + S2000x2.size a ≤ S2000x2.size a
  h_S2000x2 : 0 < S2000x2.numel
  dot_S2000x3_S3x256_S2000x256_1_0_0_1_n_n_wf : DotDims.WF S2000x3 S3x256 S2000x256 [1] [0] [0] [1] [] []
  dot_S2000x256_S256x256_S2000x256_1_0_0_1_n_n_wf : DotDims.WF S2000x256 S256x256 S2000x256 [1] [0] [0] [1] [] []
  dot_S2000x256_S256x3_S2000x3_1_0_0_1_n_n_wf : DotDims.WF S2000x256 S256x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S500000x9.size a
  hwx0_0 : ∀ i : grid0.Coords, EltTy.bits .f32 = 32 ∨ (Rect.block (s := S500000x9) S2000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x3.size a ≤ S256x3.size a
  hwx0_5 : ∀ i : grid0.Coords, EltTy.bits .f32 = 32 ∨ (Rect.block (s := S256x3) S256x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3.size a ≤ S3.size a
  hwx0_6 : ∀ i : grid0.Coords, EltTy.bits .f32 = 32 ∨ (Rect.block (s := S3) S3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x2.size a ≤ S500000x2.size a
  hwx0_7 : ∀ i : grid0.Coords, EltTy.bits .f32 = 32 ∨ (Rect.block (s := S500000x2) S2000x2.size (cc0_transform_7 i) (hinb0_7 i)).WholeWords (EltTy.packing .f32)

variable [Facts₀]

def dot_S2000x3_S3x256_S2000x256_1_0_0_1_n_n : DotDims S2000x3 S3x256 S2000x256 where
  lhsContracting := [1]
  rhsContracting := [0]
  lhsNonContracting := [0]
  rhsNonContracting := [1]
  lhsBatch := []
  rhsBatch := []
  wf := dot_S2000x3_S3x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x3_S2000x3_1_0_0_1_n_n : DotDims S2000x256 S256x3 S2000x3 where
  lhsContracting := [1]
  rhsContracting := [0]
  lhsNonContracting := [0]
  rhsNonContracting := [1]
  lhsBatch := []
  rhsBatch := []
  wf := dot_S2000x256_S256x3_S2000x3_1_0_0_1_n_n_wf

abbrev win0_0 : Pipeline.Window sig grid0 :=
  Pipeline.Window.ofSpec (Memref.whole main_arg0) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2000x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x9 : Shape := ⟨2, ![500000, 9]⟩
abbrev S3x256 : Shape := ⟨2, ![3, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S500000x3x3 : Shape := ⟨3, ![500000, 3, 3]⟩
abbrev S_ : Shape := ⟨0, ![]⟩
abbrev S3x1 : Shape := ⟨2, ![3, 1]⟩
abbrev S500000x3 : Shape := ⟨2, ![500000, 3]⟩
abbrev S500000x256 : Shape := ⟨2, ![500000, 256]⟩
abbrev S1x256 : Shape := ⟨2, ![1, 256]⟩
abbrev S1x3 : Shape := ⟨2, ![1, 3]⟩
abbrev S500000x1 : Shape := ⟨2, ![500000, 1]⟩
abbrev S500000 : Shape := ⟨1, ![500000]⟩
abbrev S500000x2 : Shape := ⟨2, ![500000, 2]⟩

abbrev nBuf : Space → Nat
  | .hbm => 76
  | .vmem => 0
  | .smem => 0
  | _ => 0

abbrev bufTy : (tb : Table) → Fin (tcTables nBuf tb) → BufTy
  | .hbm, ⟨0, _⟩ => ⟨S500000x9, .f32⟩
  | .hbm, ⟨1, _⟩ => ⟨S3x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x3, .f32⟩
  | .hbm, ⟨6, _⟩ => ⟨S3, .f32⟩
  | .hbm, ⟨7, _⟩ => ⟨S3, .i32⟩
  | .hbm, ⟨8, _⟩ => ⟨S3, .i1⟩
  | .hbm, ⟨9, _⟩ => ⟨S3, .i32⟩
  | .hbm, ⟨10, _⟩ => ⟨S3, .i1⟩
  | .hbm, ⟨11, _⟩ => ⟨S500000x3x3, .f32⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S3, .i32⟩
  | .hbm, ⟨16, _⟩ => ⟨S3x1, .i32⟩
  | .hbm, ⟨17, _⟩ => ⟨S500000x3x3, .f32⟩
  | .hbm, ⟨18, _⟩ => ⟨S_, .i32⟩
  | .hbm, ⟨19, _⟩ => ⟨S3, .i32⟩
  | .hbm, ⟨20, _⟩ => ⟨S3, .i32⟩
  | .hbm, ⟨21, _⟩ => ⟨S3, .i32⟩
  | .hbm, ⟨22, _⟩ => ⟨S3x1, .i32⟩
  | .hbm, ⟨23, _⟩ => ⟨S500000x3x3, .f32⟩
  | .hbm, ⟨24, _⟩ => ⟨S500000x3x3, .f32⟩
  | .hbm, ⟨25, _⟩ => ⟨S500000x3x3, .f32⟩
  | .hbm, ⟨26, _⟩ => ⟨S_, .f32⟩
  | .hbm, ⟨27, _⟩ => ⟨S500000x3, .f32⟩
  | .hbm, ⟨28, _⟩ => ⟨S500000x3, .f32⟩
  | .hbm, ⟨29, _⟩ => ⟨S500000x256, .f32⟩
  | .hbm, ⟨30, _⟩ => ⟨S1x256, .f32⟩
  | .hbm, ⟨31, _⟩ => ⟨S500000x256, .f32⟩
  | .hbm, ⟨32, _⟩ => ⟨S500000x256, .f32⟩
  | .hbm, ⟨33, _⟩ => ⟨S_, .f32⟩
  | .hbm, ⟨34, _⟩ => ⟨S500000x256, .f32⟩
  | .hbm, ⟨35, _⟩ => ⟨S500000x256, .f32⟩
  | .hbm, ⟨36, _⟩ => ⟨S500000x256, .f32⟩
  | .hbm, ⟨37, _⟩ => ⟨S1x256, .f32⟩
  | .hbm, ⟨38, _⟩ => ⟨S500000x256, .f32⟩
  | .hbm, ⟨39, _⟩ => ⟨S500000x256, .f32⟩
  | .hbm, ⟨40, _⟩ => ⟨S_, .f32⟩
  | .hbm, ⟨41, _⟩ => ⟨S500000x256, .f32⟩
  | .hbm, ⟨42, _⟩ => ⟨S500000x256, .f32⟩
  | .hbm, ⟨43, _⟩ => ⟨S500000x3, .f32⟩
  | .hbm, ⟨44, _⟩ => ⟨S1x3, .f32⟩
  | .hbm, ⟨45, _⟩ => ⟨S500000x3, .f32⟩
  | .hbm, ⟨46, _⟩ => ⟨S500000x3, .f32⟩
  | .hbm, ⟨47, _⟩ => ⟨S500000x1, .f32⟩
  | .hbm, ⟨48, _⟩ => ⟨S500000, .f32⟩
  | .hbm, ⟨49, _⟩ => ⟨S500000x1, .f32⟩
  | .hbm, ⟨50, _⟩ => ⟨S500000, .f32⟩
  | .hbm, ⟨51, _⟩ => ⟨S500000, .f32⟩
  | .hbm, ⟨52, _⟩ => ⟨S_, .f32⟩
  | .hbm, ⟨53, _⟩ => ⟨S500000, .f32⟩
  | .hbm, ⟨54, _⟩ => ⟨S500000, .f32⟩
  | .hbm, ⟨55, _⟩ => ⟨S500000x1, .f32⟩
  | .hbm, ⟨56, _⟩ => ⟨S500000, .f32⟩
  | .hbm, ⟨57, _⟩ => ⟨S500000x1, .f32⟩
  | .hbm, ⟨58, _⟩ => ⟨S500000, .f32⟩
  | .hbm, ⟨59, _⟩ => ⟨S500000, .f32⟩
  | .hbm, ⟨60, _⟩ => ⟨S_, .f32⟩
  | .hbm, ⟨61, _⟩ => ⟨S500000, .f32⟩
  | .hbm, ⟨62, _⟩ => ⟨S500000, .f32⟩
  | .hbm, ⟨63, _⟩ => ⟨S500000, .f32⟩
  | .hbm, ⟨64, _⟩ => ⟨S500000x1, .f32⟩
  | .hbm, ⟨65, _⟩ => ⟨S500000, .f32⟩
  | .hbm, ⟨66, _⟩ => ⟨S500000x1, .f32⟩
  | .hbm, ⟨67, _⟩ => ⟨S500000, .f32⟩
  | .hbm, ⟨68, _⟩ => ⟨S500000, .f32⟩
  | .hbm, ⟨69, _⟩ => ⟨S500000, .f32⟩
  | .hbm, ⟨70, _⟩ => ⟨S500000, .f32⟩
  | .hbm, ⟨71, _⟩ => ⟨S500000, .f32⟩
  | .hbm, ⟨72, _⟩ => ⟨S500000, .f32⟩
  | .hbm, ⟨73, _⟩ => ⟨S500000x1, .f32⟩
  | .hbm, ⟨74, _⟩ => ⟨S500000x1, .f32⟩
  | .hbm, ⟨75, _⟩ => ⟨S500000x2, .f32⟩
  | _, _ => ⟨S500000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_c_3 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  shapeCasts_S500000x9_S500000x3x3 : S500000x9.ShapeCasts S500000x3x3
  bcast_S_S3 : S_.BroadcastsInDim S3 (![] : Fin 0 → Fin S3.rank)
  bcast_S3_S3x1_0 : S3.BroadcastsInDim S3x1 (![0] : Fin 1 → Fin S3x1.rank)
  reducesTo_S500000x3x3_S500000x3_d2 : S500000x3x3.ReducesTo [2] S500000x3
  h_S_ : 0 < S_.numel
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S3_S1x3_1 : S3.BroadcastsInDim S1x3 (![1] : Fin 1 → Fin S1x3.rank)
  bcast_S1x3_S500000x3_0_1 : S1x3.BroadcastsInDim S500000x3 (![0, 1] : Fin 2 → Fin S500000x3.rank)
  slices_S500000x3_S500000x1_0_0 : S500000x3.Slices ![0, 0] S500000x1
  shapeCasts_S500000x1_S500000 : S500000x1.ShapeCasts S500000
  slices_S500000x3_S500000x1_0_1 : S500000x3.Slices ![0, 1] S500000x1
  bcast_S_S500000 : S_.BroadcastsInDim S500000 (![] : Fin 0 → Fin S500000.rank)
  slices_S500000x3_S500000x1_0_2 : S500000x3.Slices ![0, 2] S500000x1
  bcast_S500000_S500000x1_0 : S500000.BroadcastsInDim S500000x1 (![0] : Fin 1 → Fin S500000x1.rank)
  concatenates_S500000x1_S500000x1_S500000x2_d1 : Shape.Concatenates [S500000x1, S500000x1] S500000x2 1
  gather_S500000x3x3_S3x1_S500000x3x3_02_1_n_n_1_1_50000013_wf : GatherDims.WF S500000x3x3 S3x1 S500000x3x3 [0, 2] [1] [] [1] [] 1 ![500000, 1, 3]
  dot_S500000x3_S3x256_S500000x256_1_0_0_1_n_n_wf : DotDims.WF S500000x3 S3x256 S500000x256 [1] [0] [0] [1] [] []
  dot_S500000x256_S256x256_S500000x256_1_0_0_1_n_n_wf : DotDims.WF S500000x256 S256x256 S500000x256 [1] [0] [0] [1] [] []
  dot_S500000x256_S256x3_S500000x3_1_0_0_1_n_n_wf : DotDims.WF S500000x256 S256x3 S500000x3 [1] [0] [0] [1] [] []

variable [Facts₀]

def gather_S500000x3x3_S3x1_S500000x3x3_02_1_n_n_1_1_50000013 : GatherDims S500000x3x3 S3x1 S500000x3x3 where
  offsetDims := [0, 2]
  collapsedSliceDims := [1]
  operandBatchingDims := []
  startIndicesBatchingDims := []
  startIndexMap := [1]
  indexVectorDim := 1
  sliceSizes := ![500000, 1, 3]
  wf := gather_S500000x3x3_S3x1_S500000x3x3_02_1_n_n_1_1_50000013_wf
def dot_S500000x3_S3x256_S500000x256_1_0_0_1_n_n : DotDims S500000x3 S3x256 S500000x256 where
  lhsContracting := [1]
  rhsContracting := [0]
  lhsNonContracting := [0]
  rhsNonContracting := [1]
  lhsBatch := []
  rhsBatch := []
  wf := dot_S500000x3_S3x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x3_S500000x3_1_0_0_1_n_n : DotDims S500000x256 S256x3 S500000x3 where
  lhsContracting := [1]
  rhsContracting := [0]
  lhsNonContracting := [0]
  rhsNonContracting := [1]
  lhsBatch := []
  rhsBatch := []
  wf := dot_S500000x256_S256x3_S500000x3_1_0_0_1_n_n_wf

class Facts : Prop extends Facts₀ where

variable [Facts]
-- ==== Proof.Spec.lean ====
/-
  The function both programs compute, one row of the input at a time.

  A row of `x` holds three points of ℝ³, coordinates 0–2, 3–5 and 6–8. The three distances between the pairs
  (0,1), (0,2), (1,2) feed a three-layer perceptron (3 → 256 → 256 → 3, a rectified linear unit after the first
  two layers); its three outputs `(a, b, c)` are read as the symmetric matrix `[[a, c], [c, b]]`, whose two
  eigenvalues `(a + b)/2 ∓ √(((a − b)/2)² + c²)` are the row's result. Everything is over the extended reals; the
  two float words that occur (zero and one half) are kept as words: both programs spell the same ones.
-/
import Idealize.ShloMosaic.PureOps.Ideal
import Idealize.ShloMosaic.Lib.ValueIdx

noncomputable section

open scoped BigOperators

namespace Cert.Spec

open Idealize.ShloMosaic Idealize.ShloMosaic.ValueIdx

/-- The word both programs write for the rectifier's threshold. -/
abbrev zeroW : EReal := Ideal.ofBits .f32 0x00000000#32
/-- The word both programs write for one half. -/
abbrev halfW : EReal := Ideal.ofBits .f32 0x3F000000#32

/-- First point of pair `p`: pairs are (0,1), (0,2), (1,2). -/
def iu : Fin 3 → Fin 3 := ![0, 0, 1]
/-- Second point of pair `p`. -/
def ju : Fin 3 → Fin 3 := ![1, 2, 2]

/-- Column of coordinate `k` of point `a` in a row of nine. -/
def col (a k : Fin 3) : Fin 9 := ⟨3 * a.val + k.val, by omega⟩

/-- The distance between the two points of pair `p`. -/
def bond (x : Fin 9 → EReal) (p : Fin 3) : EReal :=
  Ideal.sqrt (∑ k : Fin 3, (x (col (iu p) k) - x (col (ju p) k)) * (x (col (iu p) k) - x (col (ju p) k)))

/-- First layer: 3 → 256, rectified. -/
def dense1 (W : (⟨2, ![3, 256]⟩ : Shape).Idx → EReal) (b : (⟨1, ![256]⟩ : Shape).Idx → EReal) (r : Fin 3 → EReal)
    (n : Fin 256) : EReal :=
  max ((∑ k : Fin 3, r k * W (ix2 k n)) + b (ix1 n)) zeroW

/-- Second layer: 256 → 256, rectified. -/
def dense2 (W : (⟨2, ![256, 256]⟩ : Shape).Idx → EReal) (b : (⟨1, ![256]⟩ : Shape).Idx → EReal) (h : Fin 256 → EReal)
    (n : Fin 256) : EReal :=
  max ((∑ k : Fin 256, h k * W (ix2 k n)) + b (ix1 n)) zeroW

/-- Third layer: 256 → 3, no rectifier. -/
def dense3 (W : (⟨2, ![256, 3]⟩ : Shape).Idx → EReal) (b : (⟨1, ![3]⟩ : Shape).Idx → EReal) (h : Fin 256 → EReal)
    (n : Fin 3) : EReal :=
  (∑ k : Fin 256, h k * W (ix2 k n)) + b (ix1 n)

/-- The two eigenvalues of `[[w 0, w 2], [w 2, w 1]]`, the smaller first. -/
def eig (w : Fin 3 → EReal) (j : Fin 2) : EReal :=
  if j.val = 0 then halfW * (w 0 + w 1) - Ideal.sqrt (halfW * (w 0 - w 1) * (halfW * (w 0 - w 1)) + w 2 * w 2)
  else halfW * (w 0 + w 1) + Ideal.sqrt (halfW * (w 0 - w 1) * (halfW * (w 0 - w 1)) + w 2 * w 2)

/-- One row's result from that row of `x` and the six parameter arrays. -/
def rowOut (x : Fin 9 → EReal)
    (W1 : (⟨2, ![3, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 3]⟩ : Shape).Idx → EReal) (b3 : (⟨1, ![3]⟩ : Shape).Idx → EReal) (j : Fin 2) : EReal :=
  eig (dense3 W3 b3 (dense2 W2 b2 (dense1 W1 b1 (bond x)))) j

/-- The whole result array: row `i 0` of the output is `rowOut` of row `i 0` of `x`. -/
def G (x : (⟨2, ![500000, 9]⟩ : Shape).Idx → EReal)
    (W1 : (⟨2, ![3, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 3]⟩ : Shape).Idx → EReal) (b3 : (⟨1, ![3]⟩ : Shape).Idx → EReal) :
    (⟨2, ![500000, 2]⟩ : Shape).Idx → EReal :=
  fun i => rowOut (fun c => x (ix2 (i 0) c)) W1 b1 W2 b2 W3 b3 (i 1)

end Cert.Spec

end
-- ==== Proof.KernelPayload.lean ====
/-
  The kernel's body at one element of its output block: row `p` of the block depends on row `p` of the `x` block
  alone, and is `Spec.rowOut` of it.
-/
import proofs.«113246_j11072425689287_1_alg».proof.Proof.Gen.KernelIdeal.Skeleton
import proofs.«113246_j11072425689287_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- A lane sum over the three lanes of a row, read at the row. -/
theorem laneSum_apply (v : FVec Ideal S2000x3 .f32) (h : S2000x3.Reduces [1] S2000) (hφ : FKind.Formats .f32)
    (hacc : (0x00000000#32 : BitVec 32) = 0x00000000#32) (p : Fin 2000) :
    multiReduction (F := Ideal) .add [1] S2000 v 0x00000000#32 h hφ hacc (ix1 p) = ∑ k : Fin 3, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- The cast of a column of 2000 to a 2000 by 1 matrix reads the column at the row. -/
theorem keepdims_apply (v : FVec Ideal S2000 .f32) (h : S2000.ShapeCasts S2000x1) (p : Fin 2000) (u : Fin 1) :
    shapeCast S2000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- Three columns laid side by side, read at lane 0: the first column. -/
theorem concat3_apply0 (a b c : FVec Ideal S2000x1 .f32)
    (h : Shape.Concatenates [S2000x1, S2000x1, S2000x1] S2000x3 1) (p : Fin 2000) :
    concatenate S2000x3 1 [⟨S2000x1, a⟩, ⟨S2000x1, b⟩, ⟨S2000x1, c⟩] h (ix2 p (0 : Fin 3)) = a (ix2 p (0 : Fin 1)) :=
  concatenate_apply_piece (t := S2000x3) (1 : Fin 2) [⟨S2000x1, a⟩, ⟨S2000x1, b⟩, ⟨S2000x1, c⟩] h (ix2 p (0 : Fin 3)) 0 (by show (0 : Nat) < 3; omega)
    S2000x1 a rfl rfl 0 rfl (ix2 p (0 : Fin 1))
    (fun bx hb => match bx with
      | ⟨0, _⟩ => rfl
      | ⟨1, _⟩ => absurd rfl hb) rfl

/-- Three columns laid side by side, read at lane 1: the second column. -/
theorem concat3_apply1 (a b c : FVec Ideal S2000x1 .f32)
    (h : Shape.Concatenates [S2000x1, S2000x1, S2000x1] S2000x3 1) (p : Fin 2000) :
    concatenate S2000x3 1 [⟨S2000x1, a⟩, ⟨S2000x1, b⟩, ⟨S2000x1, c⟩] h (ix2 p (1 : Fin 3)) = b (ix2 p (0 : Fin 1)) :=
  concatenate_apply_piece (t := S2000x3) (1 : Fin 2) [⟨S2000x1, a⟩, ⟨S2000x1, b⟩, ⟨S2000x1, c⟩] h (ix2 p (1 : Fin 3)) 1 (by show (1 : Nat) < 3; omega)
    S2000x1 b rfl rfl 1 rfl (ix2 p (0 : Fin 1))
    (fun bx hb => match bx with
      | ⟨0, _⟩ => rfl
      | ⟨1, _⟩ => absurd rfl hb) rfl

/-- Three columns laid side by side, read at lane 2: the third column. -/
theorem concat3_apply2 (a b c : FVec Ideal S2000x1 .f32)
    (h : Shape.Concatenates [S2000x1, S2000x1, S2000x1] S2000x3 1) (p : Fin 2000) :
    concatenate S2000x3 1 [⟨S2000x1, a⟩, ⟨S2000x1, b⟩, ⟨S2000x1, c⟩] h (ix2 p (2 : Fin 3)) = c (ix2 p (0 : Fin 1)) :=
  concatenate_apply_piece (t := S2000x3) (1 : Fin 2) [⟨S2000x1, a⟩, ⟨S2000x1, b⟩, ⟨S2000x1, c⟩] h (ix2 p (2 : Fin 3)) 2 (by show (2 : Nat) < 3; omega)
    S2000x1 c rfl rfl 2 rfl (ix2 p (0 : Fin 1))
    (fun bx hb => match bx with
      | ⟨0, _⟩ => rfl
      | ⟨1, _⟩ => absurd rfl hb) rfl

/-- Two columns laid side by side, read at lane 0: the first column. -/
theorem concat2_apply0 (a b : FVec Ideal S2000x1 .f32)
    (h : Shape.Concatenates [S2000x1, S2000x1] S2000x2 1) (p : Fin 2000) :
    concatenate S2000x2 1 [⟨S2000x1, a⟩, ⟨S2000x1, b⟩] h (ix2 p (0 : Fin 2)) = a (ix2 p (0 : Fin 1)) :=
  concatenate_apply_piece (t := S2000x2) (1 : Fin 2) [⟨S2000x1, a⟩, ⟨S2000x1, b⟩] h (ix2 p (0 : Fin 2)) 0 (by show (0 : Nat) < 2; omega)
    S2000x1 a rfl rfl 0 rfl (ix2 p (0 : Fin 1))
    (fun bx hb => match bx with
      | ⟨0, _⟩ => rfl
      | ⟨1, _⟩ => absurd rfl hb) rfl

/-- Two columns laid side by side, read at lane 1: the second column. -/
theorem concat2_apply1 (a b : FVec Ideal S2000x1 .f32)
    (h : Shape.Concatenates [S2000x1, S2000x1] S2000x2 1) (p : Fin 2000) :
    concatenate S2000x2 1 [⟨S2000x1, a⟩, ⟨S2000x1, b⟩] h (ix2 p (1 : Fin 2)) = b (ix2 p (0 : Fin 1)) :=
  concatenate_apply_piece (t := S2000x2) (1 : Fin 2) [⟨S2000x1, a⟩, ⟨S2000x1, b⟩] h (ix2 p (1 : Fin 2)) 1 (by show (1 : Nat) < 2; omega)
    S2000x1 b rfl rfl 1 rfl (ix2 p (0 : Fin 1))
    (fun bx hb => match bx with
      | ⟨0, _⟩ => rfl
      | ⟨1, _⟩ => absurd rfl hb) rfl

/-- A bias row of 256 cast to 1 by 256 and repeated down 2000 rows reads the bias at the column. -/
theorem bias256_apply {α : Type} (b : S256.Idx → α) (h1 : S256.ShapeCasts S1x256) (h2 : S1x256.Broadcasts S2000x256)
    (p : Fin 2000) (n : Fin 256) :
    broadcastTo S2000x256 (shapeCast S1x256 b h1) h2 (ix2 p n) = b (ix1 n) :=
  (broadcastTo_1b_ab_apply (shapeCast S1x256 b h1) h2 p n).trans (shapeCast_a_1a_apply b h1 0 n)

/-- A bias row of 3 cast to 1 by 3 and repeated down 2000 rows reads the bias at the column. -/
theorem bias3_apply {α : Type} (b : S3.Idx → α) (h1 : S3.ShapeCasts S1x3) (h2 : S1x3.Broadcasts S2000x3)
    (p : Fin 2000) (n : Fin 3) :
    broadcastTo S2000x3 (shapeCast S1x3 b h1) h2 (ix2 p n) = b (ix1 n) :=
  (broadcastTo_1b_ab_apply (shapeCast S1x3 b h1) h2 p n).trans (shapeCast_a_1a_apply b h1 0 n)

/-- The left operand's row coordinate at an output index is the output's row. -/
theorem lhs_mm1_0 (j : S2000x256.Idx) (q : dot_S2000x3_S3x256_S2000x256_1_0_0_1_n_n.contr.Idx) :
    ((dot_S2000x3_S3x256_S2000x256_1_0_0_1_n_n).lhsIdx j q 0).val = (j 0).val := by
  simp [DotDims.lhsIdx, dot_S2000x3_S3x256_S2000x256_1_0_0_1_n_n]; rfl
/-- The left operand's column coordinate is the contraction coordinate. -/
theorem lhs_mm1_1 (j : S2000x256.Idx) (q : dot_S2000x3_S3x256_S2000x256_1_0_0_1_n_n.contr.Idx) :
    ((dot_S2000x3_S3x256_S2000x256_1_0_0_1_n_n).lhsIdx j q 1).val = (q ⟨0, by decide⟩).val :=
  (dot_S2000x3_S3x256_S2000x256_1_0_0_1_n_n).lhsIdx_val_of_single (cl := 1) rfl j q
/-- The right operand's row coordinate is the contraction coordinate. -/
theorem rhs_mm1_0 (j : S2000x256.Idx) (q : dot_S2000x3_S3x256_S2000x256_1_0_0_1_n_n.contr.Idx) :
    ((dot_S2000x3_S3x256_S2000x256_1_0_0_1_n_n).rhsIdx j q 0).val = (q ⟨0, by decide⟩).val :=
  (dot_S2000x3_S3x256_S2000x256_1_0_0_1_n_n).rhsIdx_val_of_single (cr := 0) rfl j q
/-- The right operand's column coordinate at an output index is the output's column. -/
theorem rhs_mm1_1 (j : S2000x256.Idx) (q : dot_S2000x3_S3x256_S2000x256_1_0_0_1_n_n.contr.Idx) :
    ((dot_S2000x3_S3x256_S2000x256_1_0_0_1_n_n).rhsIdx j q 1).val = (j 1).val := by
  simp [DotDims.rhsIdx, dot_S2000x3_S3x256_S2000x256_1_0_0_1_n_n]; rfl

/-- The product into the zero accumulator, read at (p, n): the sum over the three contracted coordinates of the
    products of the operands' entries. -/
theorem mm1_apply (A : FVec Ideal S2000x3 .bf16) (B : FVec Ideal S3x256 .bf16) (p : Fin 2000) (n : Fin 256) :
    matmul (F := Ideal) dot_S2000x3_S3x256_S2000x256_1_0_0_1_n_n none A B (constant (F := Ideal) S2000x256 .f32 0x00000000#32) (ix2 p n)
      = ∑ k : Fin 3, A (ix2 p k) * B (ix2 k n) := by
  refine (Ideal.matmul_constant_zero_apply dot_S2000x3_S3x256_S2000x256_1_0_0_1_n_n none A B (ix2 p n)).trans ?_
  rw [← Equiv.sum_comp (contrEquiv1 dot_S2000x3_S3x256_S2000x256_1_0_0_1_n_n 3 rfl rfl).symm]
  refine Finset.sum_congr rfl fun k _ => ?_
  have hk := contrEquiv1_symm_val dot_S2000x3_S3x256_S2000x256_1_0_0_1_n_n 3 rfl rfl k
  have hl : (dot_S2000x3_S3x256_S2000x256_1_0_0_1_n_n).lhsIdx (ix2 p n) ((contrEquiv1 dot_S2000x3_S3x256_S2000x256_1_0_0_1_n_n 3 rfl rfl).symm k) = ix2 p k := by
    funext ax; apply Fin.ext
    match ax with
    | ⟨0, _⟩ => exact lhs_mm1_0 _ _
    | ⟨1, _⟩ => exact (lhs_mm1_1 _ _).trans hk
  have hr : (dot_S2000x3_S3x256_S2000x256_1_0_0_1_n_n).rhsIdx (ix2 p n) ((contrEquiv1 dot_S2000x3_S3x256_S2000x256_1_0_0_1_n_n 3 rfl rfl).symm k) = ix2 k n := by
    funext ax; apply Fin.ext
    match ax with
    | ⟨0, _⟩ => exact (rhs_mm1_0 _ _).trans hk
    | ⟨1, _⟩ => exact rhs_mm1_1 _ _
  rw [hl, hr]

/-- The left operand's row coordinate at an output index is the output's row. -/
theorem lhs_mm2_0 (j : S2000x256.Idx) (q : dot_S2000x256_S256x256_S2000x256_1_0_0_1_n_n.contr.Idx) :
    ((dot_S2000x256_S256x256_S2000x256_1_0_0_1_n_n).lhsIdx j q 0).val = (j 0).val := by
  simp [DotDims.lhsIdx, dot_S2000x256_S256x256_S2000x256_1_0_0_1_n_n]; rfl
/-- The left operand's column coordinate is the contraction coordinate. -/
theorem lhs_mm2_1 (j : S2000x256.Idx) (q : dot_S2000x256_S256x256_S2000x256_1_0_0_1_n_n.contr.Idx) :
    ((dot_S2000x256_S256x256_S2000x256_1_0_0_1_n_n).lhsIdx j q 1).val = (q ⟨0, by decide⟩).val :=
  (dot_S2000x256_S256x256_S2000x256_1_0_0_1_n_n).lhsIdx_val_of_single (cl := 1) rfl j q
/-- The right operand's row coordinate is the contraction coordinate. -/
theorem rhs_mm2_0 (j : S2000x256.Idx) (q : dot_S2000x256_S256x256_S2000x256_1_0_0_1_n_n.contr.Idx) :
    ((dot_S2000x256_S256x256_S2000x256_1_0_0_1_n_n).rhsIdx j q 0).val = (q ⟨0, by decide⟩).val :=
  (dot_S2000x256_S256x256_S2000x256_1_0_0_1_n_n).rhsIdx_val_of_single (cr := 0) rfl j q
/-- The right operand's column coordinate at an output index is the output's column. -/
theorem rhs_mm2_1 (j : S2000x256.Idx) (q : dot_S2000x256_S256x256_S2000x256_1_0_0_1_n_n.contr.Idx) :
    ((dot_S2000x256_S256x256_S2000x256_1_0_0_1_n_n).rhsIdx j q 1).val = (j 1).val := by
  simp [DotDims.rhsIdx, dot_S2000x256_S256x256_S2000x256_1_0_0_1_n_n]; rfl

/-- The product into the zero accumulator, read at (p, n): the sum over the 256 contracted coordinates of the
    products of the operands' entries. -/
theorem mm2_apply (A : FVec Ideal S2000x256 .bf16) (B : FVec Ideal S256x256 .bf16) (p : Fin 2000) (n : Fin 256) :
    matmul (F := Ideal) dot_S2000x256_S256x256_S2000x256_1_0_0_1_n_n none A B (constant (F := Ideal) S2000x256 .f32 0x00000000#32) (ix2 p n)
      = ∑ k : Fin 256, A (ix2 p k) * B (ix2 k n) := by
  refine (Ideal.matmul_constant_zero_apply dot_S2000x256_S256x256_S2000x256_1_0_0_1_n_n none A B (ix2 p n)).trans ?_
  rw [← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have hl : (dot_S2000x256_S256x256_S2000x256_1_0_0_1_n_n).lhsIdx (ix2 p n) ((contrEquiv1 dot_S2000x256_S256x256_S2000x256_1_0_0_1_n_n 256 rfl rfl).symm k) = ix2 p k := by
    funext ax; apply Fin.ext
    match ax with
    | ⟨0, _⟩ => exact lhs_mm2_0 _ _
    | ⟨1, _⟩ => exact (lhs_mm2_1 _ _).trans hk
  have hr : (dot_S2000x256_S256x256_S2000x256_1_0_0_1_n_n).rhsIdx (ix2 p n) ((contrEquiv1 dot_S2000x256_S256x256_S2000x256_1_0_0_1_n_n 256 rfl rfl).symm k) = ix2 k n := by
    funext ax; apply Fin.ext
    match ax with
    | ⟨0, _⟩ => exact (rhs_mm2_0 _ _).trans hk
    | ⟨1, _⟩ => exact rhs_mm2_1 _ _
  rw [hl, hr]

/-- The left operand's row coordinate at an output index is the output's row. -/
theorem lhs_mm3_0 (j : S2000x3.Idx) (q : dot_S2000x256_S256x3_S2000x3_1_0_0_1_n_n.contr.Idx) :
    ((dot_S2000x256_S256x3_S2000x3_1_0_0_1_n_n).lhsIdx j q 0).val = (j 0).val := by
  simp [DotDims.lhsIdx, dot_S2000x256_S256x3_S2000x3_1_0_0_1_n_n]; rfl
/-- The left operand's column coordinate is the contraction coordinate. -/
theorem lhs_mm3_1 (j : S2000x3.Idx) (q : dot_S2000x256_S256x3_S2000x3_1_0_0_1_n_n.contr.Idx) :
    ((dot_S2000x256_S256x3_S2000x3_1_0_0_1_n_n).lhsIdx j q 1).val = (q ⟨0, by decide⟩).val :=
  (dot_S2000x256_S256x3_S2000x3_1_0_0_1_n_n).lhsIdx_val_of_single (cl := 1) rfl j q
/-- The right operand's row coordinate is the contraction coordinate. -/
theorem rhs_mm3_0 (j : S2000x3.Idx) (q : dot_S2000x256_S256x3_S2000x3_1_0_0_1_n_n.contr.Idx) :
    ((dot_S2000x256_S256x3_S2000x3_1_0_0_1_n_n).rhsIdx j q 0).val = (q ⟨0, by decide⟩).val :=
  (dot_S2000x256_S256x3_S2000x3_1_0_0_1_n_n).rhsIdx_val_of_single (cr := 0) rfl j q
/-- The right operand's column coordinate at an output index is the output's column. -/
theorem rhs_mm3_1 (j : S2000x3.Idx) (q : dot_S2000x256_S256x3_S2000x3_1_0_0_1_n_n.contr.Idx) :
    ((dot_S2000x256_S256x3_S2000x3_1_0_0_1_n_n).rhsIdx j q 1).val = (j 1).val := by
  simp [DotDims.rhsIdx, dot_S2000x256_S256x3_S2000x3_1_0_0_1_n_n]; rfl

/-- The product into the zero accumulator, read at (p, n): the sum over the 256 contracted coordinates of the
    products of the operands' entries. -/
theorem mm3_apply (A : FVec Ideal S2000x256 .bf16) (B : FVec Ideal S256x3 .bf16) (p : Fin 2000) (n : Fin 3) :
    matmul (F := Ideal) dot_S2000x256_S256x3_S2000x3_1_0_0_1_n_n none A B (constant (F := Ideal) S2000x3 .f32 0x00000000#32) (ix2 p n)
      = ∑ k : Fin 256, A (ix2 p k) * B (ix2 k n) := by
  refine (Ideal.matmul_constant_zero_apply dot_S2000x256_S256x3_S2000x3_1_0_0_1_n_n none A B (ix2 p n)).trans ?_
  rw [← Equiv.sum_comp (contrEquiv1 dot_S2000x256_S256x3_S2000x3_1_0_0_1_n_n 256 rfl rfl).symm]
  refine Finset.sum_congr rfl fun k _ => ?_
  have hk := contrEquiv1_symm_val dot_S2000x256_S256x3_S2000x3_1_0_0_1_n_n 256 rfl rfl k
  have hl : (dot_S2000x256_S256x3_S2000x3_1_0_0_1_n_n).lhsIdx (ix2 p n) ((contrEquiv1 dot_S2000x256_S256x3_S2000x3_1_0_0_1_n_n 256 rfl rfl).symm k) = ix2 p k := by
    funext ax; apply Fin.ext
    match ax with
    | ⟨0, _⟩ => exact lhs_mm3_0 _ _
    | ⟨1, _⟩ => exact (lhs_mm3_1 _ _).trans hk
  have hr : (dot_S2000x256_S256x3_S2000x3_1_0_0_1_n_n).rhsIdx (ix2 p n) ((contrEquiv1 dot_S2000x256_S256x3_S2000x3_1_0_0_1_n_n 256 rfl rfl).symm k) = ix2 k n := by
    funext ax; apply Fin.ext
    match ax with
    | ⟨0, _⟩ => exact (rhs_mm3_0 _ _).trans hk
    | ⟨1, _⟩ => exact rhs_mm3_1 _ _
  rw [hl, hr]

/-- One distance column at a row: the root of the sum over the three lanes of the squared differences. -/
theorem dist_apply (a b : FVec Ideal S2000x3 .f32) (h : S2000x3.Reduces [1] S2000) (hφ : FKind.Formats .f32)
    (hacc : (0x00000000#32 : BitVec 32) = 0x00000000#32) (hc : S2000.ShapeCasts S2000x1) (p : Fin 2000) (u : Fin 1) :
    sqrt (shapeCast S2000x1 (multiReduction (F := Ideal) .add [1] S2000 (mulf (subf a b) (subf a b)) 0x00000000#32 h hφ hacc) hc)
        (ix2 p u)
      = Ideal.sqrt (∑ k : Fin 3, (a (ix2 p k) - b (ix2 p k)) * (a (ix2 p k) - b (ix2 p k))) :=
  congrArg Ideal.sqrt ((keepdims_apply _ hc p u).trans (laneSum_apply _ h hφ hacc p))

/-- A column slice of width 3 of a row of nine, starting at three times a point's number, reads that point's coordinate. -/
theorem col_slice (x0 : Vec Ideal S2000x9 .f32) (o : Nat) (h : S2000x9.Slices ![0, o] S2000x3) (a : Fin 3)
    (ha : 3 * a.val = o) (p : Fin 2000) (j : Fin 3) :
    extractStridedSlice S2000x3 ![0, o] x0 h (ix2 p j) = x0 (ix2 p (Cert.Spec.col a j)) :=
  slice2_axis1_apply o x0 h p j (Cert.Spec.col a j) (by show 3 * a.val + j.val = o + j.val; omega)

/-- The distance column of the points `a` and `b` at a row, over that row's entries. -/
theorem pair_dist (x0 : Vec Ideal S2000x9 .f32) (oa ob : Nat) (hsa : S2000x9.Slices ![0, oa] S2000x3)
    (hsb : S2000x9.Slices ![0, ob] S2000x3) (a b : Fin 3) (ea : 3 * a.val = oa) (eb : 3 * b.val = ob)
    (hr : S2000x3.Reduces [1] S2000) (hφ : FKind.Formats .f32) (hacc : (0x00000000#32 : BitVec 32) = 0x00000000#32)
    (hc : S2000.ShapeCasts S2000x1) (p : Fin 2000) (u : Fin 1) :
    sqrt (shapeCast S2000x1 (multiReduction (F := Ideal) .add [1] S2000
        (mulf (subf (extractStridedSlice S2000x3 ![0, oa] x0 hsa) (extractStridedSlice S2000x3 ![0, ob] x0 hsb))
          (subf (extractStridedSlice S2000x3 ![0, oa] x0 hsa) (extractStridedSlice S2000x3 ![0, ob] x0 hsb)))
        0x00000000#32 hr hφ hacc) hc) (ix2 p u)
      = Ideal.sqrt (∑ j : Fin 3, (x0 (ix2 p (Cert.Spec.col a j)) - x0 (ix2 p (Cert.Spec.col b j)))
          * (x0 (ix2 p (Cert.Spec.col a j)) - x0 (ix2 p (Cert.Spec.col b j)))) :=
  (dist_apply _ _ hr hφ hacc hc p u).trans (congrArg Ideal.sqrt (Finset.sum_congr rfl fun j _ => by
    rw [col_slice x0 oa hsa a ea p j, col_slice x0 ob hsb b eb p j]))

/-- The three distance columns laid side by side, at a row and a pair: that pair's distance over the row. -/
theorem bond_stage (x0 : Vec Ideal S2000x9 .f32)
    (h0 : S2000x9.Slices ![0, 0] S2000x3) (h3 : S2000x9.Slices ![0, 3] S2000x3) (h6 : S2000x9.Slices ![0, 6] S2000x3)
    (hr : S2000x3.Reduces [1] S2000) (hφ : FKind.Formats .f32) (hacc : (0x00000000#32 : BitVec 32) = 0x00000000#32)
    (hc : S2000.ShapeCasts S2000x1) (hcat : Shape.Concatenates [S2000x1, S2000x1, S2000x1] S2000x3 1)
    (p : Fin 2000) (k : Fin 3) :
    concatenate S2000x3 1
        [⟨S2000x1, sqrt (shapeCast S2000x1 (multiReduction (F := Ideal) .add [1] S2000
            (mulf (subf (extractStridedSlice S2000x3 ![0, 0] x0 h0) (extractStridedSlice S2000x3 ![0, 3] x0 h3))
              (subf (extractStridedSlice S2000x3 ![0, 0] x0 h0) (extractStridedSlice S2000x3 ![0, 3] x0 h3)))
            0x00000000#32 hr hφ hacc) hc)⟩,
          ⟨S2000x1, sqrt (shapeCast S2000x1 (multiReduction (F := Ideal) .add [1] S2000
            (mulf (subf (extractStridedSlice S2000x3 ![0, 0] x0 h0) (extractStridedSlice S2000x3 ![0, 6] x0 h6))
              (subf (extractStridedSlice S2000x3 ![0, 0] x0 h0) (extractStridedSlice S2000x3 ![0, 6] x0 h6)))
            0x00000000#32 hr hφ hacc) hc)⟩,
          ⟨S2000x1, sqrt (shapeCast S2000x1 (multiReduction (F := Ideal) .add [1] S2000
            (mulf (subf (extractStridedSlice S2000x3 ![0, 3] x0 h3) (extractStridedSlice S2000x3 ![0, 6] x0 h6))
              (subf (extractStridedSlice S2000x3 ![0, 3] x0 h3) (extractStridedSlice S2000x3 ![0, 6] x0 h6)))
            0x00000000#32 hr hφ hacc) hc)⟩]
        hcat (ix2 p k)
      = Cert.Spec.bond (fun c => x0 (ix2 p c)) k := by
  match k with
  | ⟨0, _⟩ =>
    exact (concat3_apply0 _ _ _ hcat p).trans (pair_dist x0 0 3 h0 h3 0 1 rfl rfl hr hφ hacc hc p 0)
  | ⟨1, _⟩ =>
    exact (concat3_apply1 _ _ _ hcat p).trans (pair_dist x0 0 6 h0 h6 0 2 rfl rfl hr hφ hacc hc p 0)
  | ⟨2, _⟩ =>
    exact (concat3_apply2 _ _ _ hcat p).trans (pair_dist x0 3 6 h3 h6 1 2 rfl rfl hr hφ hacc hc p 0)

/-- The second hidden layer at (p, n): the row function's second layer over row `p` of the input block. -/
theorem pay2_apply (x0 : Vec Ideal S2000x9 .f32) (x1 : Vec Ideal S3x256 .f32) (x2 : Vec Ideal S256 .f32)
    (x3 : Vec Ideal S256x256 .f32) (x4 : Vec Ideal S256 .f32) (p : Fin 2000) (n : Fin 256) :
    k0_pay2 (F := Ideal) x0 x1 x2 x3 x4 (ix2 p n)
      = Cert.Spec.dense2 x3 x4 (Cert.Spec.dense1 x1 x2 (Cert.Spec.bond (fun c => x0 (ix2 p c)))) n := by
  unfold k0_pay2
  simp only [truncf_apply, maximumf_apply, addf_apply, broadcast_apply, bias256_apply, mm2_apply, mm1_apply]
  unfold Cert.Spec.dense2 Cert.Spec.dense1
  refine congrArg (fun t => max (t + x4 (ix1 n)) Cert.Spec.zeroW) (Finset.sum_congr rfl fun k _ => ?_)
  refine congrArg (fun t => max (t + x2 (ix1 k)) Cert.Spec.zeroW * x3 (ix2 k n)) (Finset.sum_congr rfl fun k1 _ => ?_)
  exact congrArg (· * x1 (ix2 k1 k)) (bond_stage x0 _ _ _ _ _ _ _ _ p k1)

/-- A root read at an index is the root of the entry. -/
theorem sqrt_apply {s : Shape} {φ : FTy} (v : FVec Ideal s φ) (i : s.Idx) : sqrt v i = Ideal.sqrt (v i) := rfl

/-- A column slice of width 1 of a row of three reads the row at that column. -/
theorem unit_slice {α : Type} (w : S2000x3.Idx → α) (o : Nat) (h : S2000x3.Slices ![0, o] S2000x1) (c : Fin 3)
    (hc : c.val = o) (p : Fin 2000) (u : Fin 1) :
    extractStridedSlice S2000x1 ![0, o] w h (ix2 p u) = w (ix2 p c) :=
  slice2_axis1_apply o w h p u c (by have := u.isLt; omega)

/-- The third layer at (p, c): the row function's third layer over row `p` of the hidden block. -/
theorem dense3_stage (H : FVec Ideal S2000x256 .bf16) (x5 : Vec Ideal S256x3 .f32) (x6 : Vec Ideal S3 .f32)
    (hb : FTy.bits .bf16 < FTy.bits .f32) (h1 : S3.ShapeCasts S1x3) (h2 : S1x3.Broadcasts S2000x3)
    (p : Fin 2000) (c : Fin 3) :
    addf (matmul (F := Ideal) dot_S2000x256_S256x3_S2000x3_1_0_0_1_n_n none H (truncf .bf16 x5 hb)
          (constant (F := Ideal) S2000x3 .f32 0x00000000#32))
        (broadcastTo S2000x3 (shapeCast S1x3 x6 h1) h2) (ix2 p c)
      = Cert.Spec.dense3 x5 x6 (fun k => H (ix2 p k)) c :=
  congrArg₂ (· + ·) (mm3_apply H (truncf .bf16 x5 hb) p c) (bias3_apply x6 h1 h2 p c)

/-- The two eigenvalue columns laid side by side, at a row: the eigenvalues of that row's three entries. -/
theorem eig_stage (w : FVec Ideal S2000x3 .f32)
    (hs0 : S2000x3.Slices ![0, 0] S2000x1) (hs1 : S2000x3.Slices ![0, 1] S2000x1) (hs2 : S2000x3.Slices ![0, 2] S2000x1)
    (hcat : Shape.Concatenates [S2000x1, S2000x1] S2000x2 1) (p : Fin 2000) (j : Fin 2) :
    concatenate S2000x2 1
        [⟨S2000x1, subf (mulf (broadcast S2000x1 (Scalar.ofBits (F := Ideal) .f32 0x3F000000#32)) (addf (extractStridedSlice S2000x1 ![0, 0] w hs0) (extractStridedSlice S2000x1 ![0, 1] w hs1)))
            (sqrt (addf (mulf (mulf (broadcast S2000x1 (Scalar.ofBits (F := Ideal) .f32 0x3F000000#32)) (subf (extractStridedSlice S2000x1 ![0, 0] w hs0) (extractStridedSlice S2000x1 ![0, 1] w hs1))) (mulf (broadcast S2000x1 (Scalar.ofBits (F := Ideal) .f32 0x3F000000#32)) (subf (extractStridedSlice S2000x1 ![0, 0] w hs0) (extractStridedSlice S2000x1 ![0, 1] w hs1)))) (mulf (extractStridedSlice S2000x1 ![0, 2] w hs2) (extractStridedSlice S2000x1 ![0, 2] w hs2))))⟩,
          ⟨S2000x1, addf (mulf (broadcast S2000x1 (Scalar.ofBits (F := Ideal) .f32 0x3F000000#32)) (addf (extractStridedSlice S2000x1 ![0, 0] w hs0) (extractStridedSlice S2000x1 ![0, 1] w hs1)))
            (sqrt (addf (mulf (mulf (broadcast S2000x1 (Scalar.ofBits (F := Ideal) .f32 0x3F000000#32)) (subf (extractStridedSlice S2000x1 ![0, 0] w hs0) (extractStridedSlice S2000x1 ![0, 1] w hs1))) (mulf (broadcast S2000x1 (Scalar.ofBits (F := Ideal) .f32 0x3F000000#32)) (subf (extractStridedSlice S2000x1 ![0, 0] w hs0) (extractStridedSlice S2000x1 ![0, 1] w hs1)))) (mulf (extractStridedSlice S2000x1 ![0, 2] w hs2) (extractStridedSlice S2000x1 ![0, 2] w hs2))))⟩]
        hcat (ix2 p j)
      = Cert.Spec.eig (fun c => w (ix2 p c)) j := by
  match j with
  | ⟨0, _⟩ =>
    refine (concat2_apply0 _ _ hcat p).trans ?_
    simp only [subf_apply, addf_apply, mulf_apply, broadcast_apply, sqrt_apply, unit_slice w 0 hs0 0 rfl,
      unit_slice w 1 hs1 1 rfl, unit_slice w 2 hs2 2 rfl]
    exact (if_pos rfl).symm
  | ⟨1, _⟩ =>
    refine (concat2_apply1 _ _ hcat p).trans ?_
    simp only [subf_apply, addf_apply, mulf_apply, broadcast_apply, sqrt_apply, unit_slice w 0 hs0 0 rfl,
      unit_slice w 1 hs1 1 rfl, unit_slice w 2 hs2 2 rfl]
    exact (if_neg (by show ¬ (1 : Nat) = 0; omega)).symm

/-- The stored block at `(p, j)` is the row function of row `p` of the loaded `x` block and the six parameter blocks. -/
theorem pay_apply (x0 : Vec Ideal S2000x9 .f32) (x1 : Vec Ideal S3x256 .f32) (x2 : Vec Ideal S256 .f32)
    (x3 : Vec Ideal S256x256 .f32) (x4 : Vec Ideal S256 .f32) (x5 : Vec Ideal S256x3 .f32) (x6 : Vec Ideal S3 .f32)
    (p : Fin 2000) (j : Fin 2) :
    k0_pay1 (F := Ideal) (k0_pay2 x0 x1 x2 x3 x4) x5 x6 (ix2 p j)
      = Cert.Spec.rowOut (fun c => x0 (ix2 p c)) x1 x2 x3 x4 x5 x6 j := by
  unfold k0_pay1
  refine (eig_stage _ _ _ _ _ p j).trans ?_
  unfold Cert.Spec.rowOut
  refine congrArg (fun w => Cert.Spec.eig w j) (funext fun c => ?_)
  refine (dense3_stage (k0_pay2 (F := Ideal) x0 x1 x2 x3 x4) x5 x6 _ _ _ p c).trans ?_
  exact congrArg (fun h => Cert.Spec.dense3 x5 x6 h c) (funext fun k => pay2_apply x0 x1 x2 x3 x4 p k)

end Cert.KernelIdeal.Payload

end
-- ==== Proof.KernelValue.lean ====
/-
  From blocks to the array. Grid point `t` of the 250 stages rows `2000 t … 2000 t + 1999` of `x` and the six parameter
  arrays whole, and writes back rows `2000 t … 2000 t + 1999` of the result. A row of the stored block is the row
  function of the same row of the `x` block (`Payload.pay_apply`), so point `t` writes block `t` of `Spec.G` of the
  argument arrays; the 250 blocks tile the 500000 rows, so the result array ends holding `Spec.G` of the arguments.
-/
import proofs.«113246_j11072425689287_1_alg».proof.Proof.Gen.KernelIdeal.Value
import proofs.«113246_j11072425689287_1_alg».proof.Proof.KernelPayload
import proofs.«113246_j11072425689287_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.ArrValue

open Cert.KernelIdeal Cert.KernelIdeal.Gen Cert.KernelIdeal.Value

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a <;> rfl

/-- The printed index maps over the grid: the `x` window and the result window are at block row `t`, block column 0; every
    parameter window is at block 0 on every axis. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem pt_lt (t : Fin cfg0.N) : t.val < 250 := lt_of_lt_of_eq t.isLt (N_0 : cfg0.N = 250)

/-- Row `p` of point `t`'s blocks is row `2000 t + p` of the arrays. -/
def row (t : Fin cfg0.N) (p : Fin 2000) : Fin 500000 := ⟨t.val * 2000 + p.val, by have := pt_lt t; have := p.isLt; omega⟩

/-- The `x` window's block at point `t`, read at `(p, k)`, is `x` at `(2000 t + p, k)`. -/
theorem xblk_apply (c : Dev nD) (t : Fin cfg0.N) (p : Fin 2000) (k : Fin 9) :
    (iblk m c 0 t : Vec Ideal S2000x9 .f32) (ix2 p k) = (V m c main_arg0 : Vec Ideal S500000x9 .f32) (ix2 (row t p) k) := by
  obtain ⟨e0, e1, -⟩ := idx_facts t
  show V m c main_arg0 (((cfg0.win 0).blk t).view.emb (ix2 p k)) = V m c main_arg0 (ix2 (row t p) k)
  congr 1
  funext a; apply Fin.ext
  match a with
  | ⟨0, _⟩ => show win0_0.index t (0 : Fin 2) * 2000 + 1 * p.val = t.val * 2000 + p.val; omega
  | ⟨1, _⟩ => show win0_0.index t (1 : Fin 2) * 9 + 1 * k.val = k.val; omega

/-- Each parameter window's block, at every point, is its whole array. -/
theorem w1blk (c : Dev nD) (t : Fin cfg0.N) : (iblk m c 1 t : Vec Ideal S3x256 .f32) = V m c main_arg1 := by
  obtain ⟨-, -, e0, e1, -⟩ := idx_facts t
  funext y
  show V m c main_arg1 (((cfg0.win 1).blk t).view.emb y) = V m c main_arg1 y
  congr 1
  funext a; apply Fin.ext
  match a with
  | ⟨0, _⟩ => show win0_1.index t (0 : Fin 2) * 3 + 1 * (y 0).val = (y 0).val; omega
  | ⟨1, _⟩ => show win0_1.index t (1 : Fin 2) * 256 + 1 * (y 1).val = (y 1).val; omega

theorem b1blk (c : Dev nD) (t : Fin cfg0.N) : (iblk m c 2 t : Vec Ideal S256 .f32) = V m c main_arg2 := by
  obtain ⟨-, -, -, -, e0, -⟩ := idx_facts t
  funext y
  show V m c main_arg2 (((cfg0.win 2).blk t).view.emb y) = V m c main_arg2 y
  congr 1
  funext a; apply Fin.ext
  match a with
  | ⟨0, _⟩ => show win0_2.index t (0 : Fin 1) * 256 + 1 * (y 0).val = (y 0).val; omega

theorem w2blk (c : Dev nD) (t : Fin cfg0.N) : (iblk m c 3 t : Vec Ideal S256x256 .f32) = V m c main_arg3 := by
  obtain ⟨-, -, -, -, -, e0, e1, -⟩ := idx_facts t
  funext y
  show V m c main_arg3 (((cfg0.win 3).blk t).view.emb y) = V m c main_arg3 y
  congr 1
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem b2blk (c : Dev nD) (t : Fin cfg0.N) : (iblk m c 4 t : Vec Ideal S256 .f32) = V m c main_arg4 := by
  obtain ⟨-, -, -, -, -, -, -, e0, -⟩ := idx_facts t
  funext y
  show V m c main_arg4 (((cfg0.win 4).blk t).view.emb y) = V m c main_arg4 y
  congr 1
  funext a; apply Fin.ext
  match a with
  | ⟨0, _⟩ => show win0_4.index t (0 : Fin 1) * 256 + 1 * (y 0).val = (y 0).val; omega

theorem w3blk (c : Dev nD) (t : Fin cfg0.N) : (iblk m c 5 t : Vec Ideal S256x3 .f32) = V m c main_arg5 := by
  obtain ⟨-, -, -, -, -, -, -, -, e0, e1, -⟩ := idx_facts t
  funext y
  show V m c main_arg5 (((cfg0.win 5).blk t).view.emb y) = V m c main_arg5 y
  congr 1
  funext a; apply Fin.ext
  match a with
  | ⟨0, _⟩ => show win0_5.index t (0 : Fin 2) * 256 + 1 * (y 0).val = (y 0).val; omega
  | ⟨1, _⟩ => show win0_5.index t (1 : Fin 2) * 3 + 1 * (y 1).val = (y 1).val; omega

theorem b3blk (c : Dev nD) (t : Fin cfg0.N) : (iblk m c 6 t : Vec Ideal S3 .f32) = V m c main_arg6 := by
  obtain ⟨-, -, -, -, -, -, -, -, -, -, e0, -⟩ := idx_facts t
  funext y
  show V m c main_arg6 (((cfg0.win 6).blk t).view.emb y) = V m c main_arg6 y
  congr 1
  funext a; apply Fin.ext
  match a with
  | ⟨0, _⟩ => show win0_6.index t (0 : Fin 1) * 3 + 1 * (y 0).val = (y 0).val; omega

/-- The result array as one function of the argument arrays as the region finds them. -/
abbrev result (c : Dev nD) : S500000x2.Idx → Elt Ideal .f32 :=
  Cert.Spec.G (V m c main_arg0) (V m c main_arg1) (V m c main_arg2) (V m c main_arg3) (V m c main_arg4) (V m c main_arg5)
    (V m c main_arg6)

/-- Point `t` writes back block `t` of `result`. -/
theorem flushed_eq (c : Dev nD) (t : Fin cfg0.N) :
    (dats m 0 c).flushed 7 t = ((cfg0.win 7).blk t).view.read (Elt Ideal) (result m c) := by
  rw [flushed7 m c t]
  unfold out0_7
  rw [View.canon_unit_zero off2]
  simp only [View.ld_unit_zero (S := S2000x9) off2, View.ld_unit_zero (S := S3x256) off2, View.ld_unit_zero (S := S256) off1,
    View.ld_unit_zero (S := S256x256) off2, View.ld_unit_zero (S := S256x3) off2, View.ld_unit_zero (S := S3) off1]
  rw [w1blk m c t, b1blk m c t, w2blk m c t, b2blk m c t, w3blk m c t, b3blk m c t]
  obtain ⟨-, -, -, -, -, -, -, -, -, -, -, e0, e1⟩ := idx_facts t
  funext j
  obtain ⟨p, q, rfl⟩ : ∃ (p : Fin 2000) (q : Fin 2), j = ix2 p q := ⟨j 0, j 1, eq_ix2 j⟩
  show k0_pay1 (F := Ideal) (k0_pay2 (iblk m c 0 t) (V m c main_arg1) (V m c main_arg2) (V m c main_arg3) (V m c main_arg4))
      (V m c main_arg5) (V m c main_arg6) (ix2 p q) = result m c (((cfg0.win 7).blk t).view.emb (ix2 p q))
  have hemb : ((cfg0.win 7).blk t).view.emb (ix2 p q) = (ix2 (row t p) q : S500000x2.Idx) := by
    funext a; apply Fin.ext
    match a with
    | ⟨0, _⟩ => show win0_7.index t (0 : Fin 2) * 2000 + 1 * p.val = t.val * 2000 + p.val; omega
    | ⟨1, _⟩ => show win0_7.index t (1 : Fin 2) * 2 + 1 * q.val = q.val; omega
  rw [hemb]
  refine (Cert.KernelIdeal.Payload.pay_apply (iblk m c 0 t) (V m c main_arg1) (V m c main_arg2) (V m c main_arg3)
    (V m c main_arg4) (V m c main_arg5) (V m c main_arg6) p q).trans ?_
  show Cert.Spec.rowOut _ _ _ _ _ _ _ q = Cert.Spec.rowOut _ _ _ _ _ _ _ q
  congr 1
  funext k
  exact xblk_apply m c t p k

/-- An index of the result array is in point `t`'s block iff each coordinate is in the block's range on its axis. -/
theorem mem_blk (t : Fin cfg0.N) (i : S500000x2.Idx) :
    i ∈ ((cfg0.win 7).blk t).view.set ↔ ∀ a : Fin 2, win0_7.index t a * S2000x2.size a ≤ (i a).val ∧ (i a).val < win0_7.index t a * S2000x2.size a + S2000x2.size a := by
  show i ∈ ((View.whole main_v0).slice (win0_7.rect t)).set ↔ _
  rw [View.set_slice_whole, Rect.mem_set_unit]
  exact Iff.rfl

/-- Row `r` of the result lies in the block of point `r / 2000`: the blocks cover the array. -/
theorem cover (i : S500000x2.Idx) : ∃ t : Fin cfg0.N, (cfg0.win 7).flush t = true ∧ i ∈ ((cfg0.win 7).blk t).view.set := by
  have hi0 : (i 0).val < 500000 := (i 0).isLt
  have hi1 : (i 1).val < 2 := (i 1).isLt
  have hN : cfg0.N = 250 := N_0
  let t : Fin cfg0.N := ⟨(i 0).val / 2000, by rw [hN]; omega⟩
  obtain ⟨-, -, -, -, -, -, -, -, -, -, -, e0, e1⟩ := idx_facts t
  have ht : t.val = (i 0).val / 2000 := rfl
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 2 ≤ (i 1).val ∧ (i 1).val < win0_7.index t (1 : Fin 2) * 2 + 2; omega

/-- The result array after the run is `result`. -/
theorem final (c : Dev nD) : (dats m 0 c).arrAt 7 cfg0.N = result m c :=
  (dats m 0 c).arrAt_eq_of_cover 7 (result m c) (fun t _ => flushed_eq m c t) cover

/-- The run, read: the result array at `Spec.G` of the arguments, the arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩)
    (Cert.KernelIdeal.Value.run_blocks m ρ)

end Cert.KernelIdeal.ArrValue

end
-- ==== Proof.RefTerm.lean ====
/-
  The reference's result as one term of its seven arguments, cut into the stages of the computation: the three
  distances of a row (a reshape to [B, 3, 3], two gathers of the pairs' points, the squared difference summed over
  the coordinate axis, the root), the three layers of the perceptron (a product with the weights, the bias broadcast
  over the rows, and for the first two the maximum with zero), and the eigenvalues of the symmetric 2×2 matrix read
  off the last layer's three outputs. Each stage is the operations of the program in their order, over any float
  values.
-/
import proofs.«113246_j11072425689287_1_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- The start indices of a gather of the pairs' points: the table `tbl` (a negative entry would be wrapped by adding 3; the
    mask that says which are negative is all false), as a column. -/
def pairIdx (tbl : (⟨S3, .i32⟩ : BufTy).Contents (Elt F)) : (⟨S3x1, .i32⟩ : BufTy).Contents (Elt F) :=
  (broadcastInDim S3x1 ![0] bcast_S3_S3x1_0 : (⟨S3, .i32⟩ : BufTy).Contents (Elt F) → (⟨S3x1, .i32⟩ : BufTy).Contents (Elt F))
    ((select : (⟨S3, .i1⟩ : BufTy).Contents (Elt F) → (⟨S3, .i32⟩ : BufTy).Contents (Elt F) → (⟨S3, .i32⟩ : BufTy).Contents (Elt F) → (⟨S3, .i32⟩ : BufTy).Contents (Elt F))
      (constantI S3 1 0#1)
      ((addi : (⟨S3, .i32⟩ : BufTy).Contents (Elt F) → (⟨S3, .i32⟩ : BufTy).Contents (Elt F) → (⟨S3, .i32⟩ : BufTy).Contents (Elt F)) tbl
        ((broadcastInDim S3 ![] bcast_S_S3 : (⟨S_, .i32⟩ : BufTy).Contents (Elt F) → (⟨S3, .i32⟩ : BufTy).Contents (Elt F)) (constantI S_ 32 3#32)))
      tbl)

/-- The rows' three points gathered by a column of start indices. -/
def points (x : FVec F S500000x9 .f32) (idx : (⟨S3x1, .i32⟩ : BufTy).Contents (Elt F)) : FVec F S500000x3x3 .f32 :=
  Host.gather gather_S500000x3x3_S3x1_S500000x3x3_02_1_n_n_1_1_50000013
    (shapeCast S500000x3x3 x shapeCasts_S500000x9_S500000x3x3) idx

/-- The three distances of every row. -/
def bonds (x : FVec F S500000x9 .f32) : FVec F S500000x3 .f32 :=
  have d : FVec F S500000x3x3 .f32 :=
    subf (points x (pairIdx (F := F) (fun i => lit0 (S3.rowMajor i)))) (points x (pairIdx (F := F) (fun i => lit1 (S3.rowMajor i))))
  Host.sqrt (Host.reduceAdd (mulf d d) (constant S_ .f32 0x00000000#32) reducesTo_S500000x3x3_S500000x3_d2 h_S_)

/-- The maximum with zero, as the program's outlined function spells it. -/
def relu (z : FVec F S500000x256 .f32) : FVec F S500000x256 .f32 :=
  maximumf z (broadcastInDim S500000x256 ![] bcast_S_S500000x256 (constant S_ .f32 0x00000000#32))

/-- First layer. -/
def layer1 (r : FVec F S500000x3 .f32) (W1 : FVec F S3x256 .f32) (b1 : FVec F S256 .f32) : FVec F S500000x256 .f32 :=
  relu (addf (Host.dotGeneral dot_S500000x3_S3x256_S500000x256_1_0_0_1_n_n none r W1)
    (broadcastInDim S500000x256 ![0, 1] bcast_S1x256_S500000x256_0_1 (broadcastInDim S1x256 ![1] bcast_S256_S1x256_1 b1)))

/-- Second layer. -/
def layer2 (h : FVec F S500000x256 .f32) (W2 : FVec F S256x256 .f32) (b2 : FVec F S256 .f32) : FVec F S500000x256 .f32 :=
  relu (addf (Host.dotGeneral dot_S500000x256_S256x256_S500000x256_1_0_0_1_n_n none h W2)
    (broadcastInDim S500000x256 ![0, 1] bcast_S1x256_S500000x256_0_1 (broadcastInDim S1x256 ![1] bcast_S256_S1x256_1 b2)))

/-- Third layer. -/
def layer3 (h : FVec F S500000x256 .f32) (W3 : FVec F S256x3 .f32) (b3 : FVec F S3 .f32) : FVec F S500000x3 .f32 :=
  addf (Host.dotGeneral dot_S500000x256_S256x3_S500000x3_1_0_0_1_n_n none h W3)
    (broadcastInDim S500000x3 ![0, 1] bcast_S1x3_S500000x3_0_1 (broadcastInDim S1x3 ![1] bcast_S3_S1x3_1 b3))

/-- Column `0`, `1` or `2` of the last layer's output, as a vector over the rows. -/
def col0 (w : FVec F S500000x3 .f32) : FVec F S500000 .f32 :=
  shapeCast S500000 (extractStridedSlice S500000x1 ![0, 0] w slices_S500000x3_S500000x1_0_0) shapeCasts_S500000x1_S500000
@[inherit_doc col0] def col1 (w : FVec F S500000x3 .f32) : FVec F S500000 .f32 :=
  shapeCast S500000 (extractStridedSlice S500000x1 ![0, 1] w slices_S500000x3_S500000x1_0_1) shapeCasts_S500000x1_S500000
@[inherit_doc col0] def col2 (w : FVec F S500000x3 .f32) : FVec F S500000 .f32 :=
  shapeCast S500000 (extractStridedSlice S500000x1 ![0, 2] w slices_S500000x3_S500000x1_0_2) shapeCasts_S500000x1_S500000

/-- One half, over the rows. -/
def half : FVec F S500000 .f32 := broadcastInDim S500000 ![] bcast_S_S500000 (constant S_ .f32 0x3F000000#32)

/-- The two eigenvalues of every row's matrix, side by side. -/
def eigs (w : FVec F S500000x3 .f32) : FVec F S500000x2 .f32 :=
  have mean : FVec F S500000 .f32 := mulf half (addf (col0 w) (col1 w))
  have dev : FVec F S500000 .f32 := mulf half (subf (col0 w) (col1 w))
  have rad : FVec F S500000 .f32 := Host.sqrt (addf (mulf dev dev) (mulf (col2 w) (col2 w)))
  concatenate S500000x2 1
    [⟨S500000x1, broadcastInDim S500000x1 ![0] bcast_S500000_S500000x1_0 (subf mean rad)⟩,
     ⟨S500000x1, broadcastInDim S500000x1 ![0] bcast_S500000_S500000x1_0 (addf mean rad)⟩]
    concatenates_S500000x1_S500000x1_S500000x2_d1

/-- The reference's result. -/
def refTerm (x : FVec F S500000x9 .f32) (W1 : FVec F S3x256 .f32) (b1 : FVec F S256 .f32) (W2 : FVec F S256x256 .f32)
    (b2 : FVec F S256 .f32) (W3 : FVec F S256x3 .f32) (b3 : FVec F S3 .f32) : FVec F S500000x2 .f32 :=
  eigs (layer3 (layer2 (layer1 (bonds x) W1 b1) W2 b2) W3 b3)

end Cert.ReferenceIdeal.RefTerm

end
-- ==== Proof.RefRun.lean ====
/-
  The reference program's run: its @main is a straight line of host operations (the two calls of the outlined rectifier
  unfolded at their sites), so every weakly fair execution terminates with the result buffer at the operations' composed
  term of the arguments, `RefTerm.refTerm`, and the arguments unchanged.
-/
import proofs.«113246_j11072425689287_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 69 operations, in order: its own 63, and at each of the two calls of the rectifier the callee's three
    (the zero, its broadcast over the rows and the features, the maximum) over that call's buffers. -/
abbrev ops : List (HloOp τ sig (Elt F)) :=
  [ StableHlo.nullary main_c (fun i => lit0 (S3.rowMajor i)),
    StableHlo.nullary main_c_0 (constantI S3 1 0#1),
    StableHlo.nullary main_c_1 (fun i => lit1 (S3.rowMajor i)),
    StableHlo.nullary main_c_2 (constantI S3 1 0#1),
    StableHlo.reshape main_arg0 main_v0 rfl shapeCasts_S500000x9_S500000x3x3,
    StableHlo.nullary main_c_3 (constantI S_ 32 3#32),
    StableHlo.unary main_c_3 main_v1 (broadcastInDim S3 ![] bcast_S_S3 : (⟨S_, .i32⟩ : BufTy).Contents (Elt F) → (⟨S3, .i32⟩ : BufTy).Contents (Elt F)),
    StableHlo.binary main_c main_v1 main_v2 (addi : (⟨S3, .i32⟩ : BufTy).Contents (Elt F) → (⟨S3, .i32⟩ : BufTy).Contents (Elt F) → (⟨S3, .i32⟩ : BufTy).Contents (Elt F)),
    StableHlo.ternary main_c_0 main_v2 main_c main_v3 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v3 main_v4 (broadcastInDim S3x1 ![0] bcast_S3_S3x1_0 : (⟨S3, .i32⟩ : BufTy).Contents (Elt F) → (⟨S3x1, .i32⟩ : BufTy).Contents (Elt F)),
    StableHlo.binary main_v0 main_v4 main_v5 ((fun x i => Host.gather gather_S500000x3x3_S3x1_S500000x3x3_02_1_n_n_1_1_50000013 x i) : (⟨S500000x3x3, .f32⟩ : BufTy).Contents (Elt F) → (⟨S3x1, .i32⟩ : BufTy).Contents (Elt F) → (⟨S500000x3x3, .f32⟩ : BufTy).Contents (Elt F)),
    StableHlo.nullary main_c_4 (constantI S_ 32 3#32),
    StableHlo.unary main_c_4 main_v6 (broadcastInDim S3 ![] bcast_S_S3 : (⟨S_, .i32⟩ : BufTy).Contents (Elt F) → (⟨S3, .i32⟩ : BufTy).Contents (Elt F)),
    StableHlo.binary main_c_1 main_v6 main_v7 (addi : (⟨S3, .i32⟩ : BufTy).Contents (Elt F) → (⟨S3, .i32⟩ : BufTy).Contents (Elt F) → (⟨S3, .i32⟩ : BufTy).Contents (Elt F)),
    StableHlo.ternary main_c_2 main_v7 main_c_1 main_v8 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v8 main_v9 (broadcastInDim S3x1 ![0] bcast_S3_S3x1_0 : (⟨S3, .i32⟩ : BufTy).Contents (Elt F) → (⟨S3x1, .i32⟩ : BufTy).Contents (Elt F)),
    StableHlo.binary main_v0 main_v9 main_v10 ((fun x i => Host.gather gather_S500000x3x3_S3x1_S500000x3x3_02_1_n_n_1_1_50000013 x i) : (⟨S500000x3x3, .f32⟩ : BufTy).Contents (Elt F) → (⟨S3x1, .i32⟩ : BufTy).Contents (Elt F) → (⟨S500000x3x3, .f32⟩ : BufTy).Contents (Elt F)),
    StableHlo.binary main_v5 main_v10 main_v11 (subf : (⟨S500000x3x3, .f32⟩ : BufTy).Contents (Elt F) → (⟨S500000x3x3, .f32⟩ : BufTy).Contents (Elt F) → (⟨S500000x3x3, .f32⟩ : BufTy).Contents (Elt F)),
    StableHlo.binary main_v11 main_v11 main_v12 (mulf : (⟨S500000x3x3, .f32⟩ : BufTy).Contents (Elt F) → (⟨S500000x3x3, .f32⟩ : BufTy).Contents (Elt F) → (⟨S500000x3x3, .f32⟩ : BufTy).Contents (Elt F)),
    StableHlo.nullary main_cst (constant S_ .f32 0x00000000#32),
    StableHlo.binary main_v12 main_cst main_v13 ((fun x v => Host.reduceAdd x v reducesTo_S500000x3x3_S500000x3_d2 h_S_) : (⟨S500000x3x3, .f32⟩ : BufTy).Contents (Elt F) → (⟨S_, .f32⟩ : BufTy).Contents (Elt F) → (⟨S500000x3, .f32⟩ : BufTy).Contents (Elt F)),
    StableHlo.unary main_v13 main_v14 (Host.sqrt : (⟨S500000x3, .f32⟩ : BufTy).Contents (Elt F) → (⟨S500000x3, .f32⟩ : BufTy).Contents (Elt F)),
    StableHlo.binary main_v14 main_arg1 main_v15 ((fun l r => Host.dotGeneral dot_S500000x3_S3x256_S500000x256_1_0_0_1_n_n none l r) : (⟨S500000x3, .f32⟩ : BufTy).Contents (Elt F) → (⟨S3x256, .f32⟩ : BufTy).Contents (Elt F) → (⟨S500000x256, .f32⟩ : BufTy).Contents (Elt F)),
    StableHlo.unary main_arg2 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S500000x256 ![0, 1] bcast_S1x256_S500000x256_0_1 : (⟨S1x256, .f32⟩ : BufTy).Contents (Elt F) → (⟨S500000x256, .f32⟩ : BufTy).Contents (Elt F)),
    StableHlo.binary main_v15 main_v17 main_v18 (addf : (⟨S500000x256, .f32⟩ : BufTy).Contents (Elt F) → (⟨S500000x256, .f32⟩ : BufTy).Contents (Elt F) → (⟨S500000x256, .f32⟩ : BufTy).Contents (Elt F)),
    StableHlo.TRef.nullary main_call0.cst (constant S_ .f32 0x00000000#32),
    StableHlo.TRef.unary main_call0.cst main_call0.v0 (broadcastInDim S500000x256 ![] bcast_S_S500000x256),
    StableHlo.TRef.binary (.of main_v18) main_call0.v0 main_call0.v1 maximumf,
    StableHlo.binary main_v19 main_arg3 main_v20 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    StableHlo.unary main_arg4 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S500000x256 ![0, 1] bcast_S1x256_S500000x256_0_1 : (⟨S1x256, .f32⟩ : BufTy).Contents (Elt F) → (⟨S500000x256, .f32⟩ : BufTy).Contents (Elt F)),
    StableHlo.binary main_v20 main_v22 main_v23 (addf : (⟨S500000x256, .f32⟩ : BufTy).Contents (Elt F) → (⟨S500000x256, .f32⟩ : BufTy).Contents (Elt F) → (⟨S500000x256, .f32⟩ : BufTy).Contents (Elt F)),
    StableHlo.TRef.nullary main_call1.cst (constant S_ .f32 0x00000000#32),
    StableHlo.TRef.unary main_call1.cst main_call1.v0 (broadcastInDim S500000x256 ![] bcast_S_S500000x256),
    StableHlo.TRef.binary (.of main_v23) main_call1.v0 main_call1.v1 maximumf,
    StableHlo.binary main_v24 main_arg5 main_v25 ((fun l r => Host.dotGeneral dot_S500000x256_S256x3_S500000x3_1_0_0_1_n_n none l r) : (⟨S500000x256, .f32⟩ : BufTy).Contents (Elt F) → (⟨S256x3, .f32⟩ : BufTy).Contents (Elt F) → (⟨S500000x3, .f32⟩ : BufTy).Contents (Elt F)),
    StableHlo.unary main_arg6 main_v26 (broadcastInDim S1x3 ![1] bcast_S3_S1x3_1 : (⟨S3, .f32⟩ : BufTy).Contents (Elt F) → (⟨S1x3, .f32⟩ : BufTy).Contents (Elt F)),
    StableHlo.unary main_v26 main_v27 (broadcastInDim S500000x3 ![0, 1] bcast_S1x3_S500000x3_0_1 : (⟨S1x3, .f32⟩ : BufTy).Contents (Elt F) → (⟨S500000x3, .f32⟩ : BufTy).Contents (Elt F)),
    StableHlo.binary main_v25 main_v27 main_v28 (addf : (⟨S500000x3, .f32⟩ : BufTy).Contents (Elt F) → (⟨S500000x3, .f32⟩ : BufTy).Contents (Elt F) → (⟨S500000x3, .f32⟩ : BufTy).Contents (Elt F)),
    StableHlo.unary main_v28 main_v29 ((extractStridedSlice S500000x1 ![0, 0] · slices_S500000x3_S500000x1_0_0) : (⟨S500000x3, .f32⟩ : BufTy).Contents (Elt F) → (⟨S500000x1, .f32⟩ : BufTy).Contents (Elt F)),
    StableHlo.reshape main_v29 main_v30 rfl shapeCasts_S500000x1_S500000,
    StableHlo.unary main_v28 main_v31 ((extractStridedSlice S500000x1 ![0, 1] · slices_S500000x3_S500000x1_0_1) : (⟨S500000x3, .f32⟩ : BufTy).Contents (Elt F) → (⟨S500000x1, .f32⟩ : BufTy).Contents (Elt F)),
    StableHlo.reshape main_v31 main_v32 rfl shapeCasts_S500000x1_S500000,
    StableHlo.binary main_v30 main_v32 main_v33 (addf : (⟨S500000, .f32⟩ : BufTy).Contents (Elt F) → (⟨S500000, .f32⟩ : BufTy).Contents (Elt F) → (⟨S500000, .f32⟩ : BufTy).Contents (Elt F)),
    StableHlo.nullary main_cst_5 (constant S_ .f32 0x3F000000#32),
    StableHlo.unary main_cst_5 main_v34 (broadcastInDim S500000 ![] bcast_S_S500000 : (⟨S_, .f32⟩ : BufTy).Contents (Elt F) → (⟨S500000, .f32⟩ : BufTy).Contents (Elt F)),
    StableHlo.binary main_v34 main_v33 main_v35 (mulf : (⟨S500000, .f32⟩ : BufTy).Contents (Elt F) → (⟨S500000, .f32⟩ : BufTy).Contents (Elt F) → (⟨S500000, .f32⟩ : BufTy).Contents (Elt F)),
    StableHlo.unary main_v28 main_v36 ((extractStridedSlice S500000x1 ![0, 0] · slices_S500000x3_S500000x1_0_0) : (⟨S500000x3, .f32⟩ : BufTy).Contents (Elt F) → (⟨S500000x1, .f32⟩ : BufTy).Contents (Elt F)),
    StableHlo.reshape main_v36 main_v37 rfl shapeCasts_S500000x1_S500000,
    StableHlo.unary main_v28 main_v38 ((extractStridedSlice S500000x1 ![0, 1] · slices_S500000x3_S500000x1_0_1) : (⟨S500000x3, .f32⟩ : BufTy).Contents (Elt F) → (⟨S500000x1, .f32⟩ : BufTy).Contents (Elt F)),
    StableHlo.reshape main_v38 main_v39 rfl shapeCasts_S500000x1_S500000,
    StableHlo.binary main_v37 main_v39 main_v40 (subf : (⟨S500000, .f32⟩ : BufTy).Contents (Elt F) → (⟨S500000, .f32⟩ : BufTy).Contents (Elt F) → (⟨S500000, .f32⟩ : BufTy).Contents (Elt F)),
    StableHlo.nullary main_cst_6 (constant S_ .f32 0x3F000000#32),
    StableHlo.unary main_cst_6 main_v41 (broadcastInDim S500000 ![] bcast_S_S500000 : (⟨S_, .f32⟩ : BufTy).Contents (Elt F) → (⟨S500000, .f32⟩ : BufTy).Contents (Elt F)),
    StableHlo.binary main_v41 main_v40 main_v42 (mulf : (⟨S500000, .f32⟩ : BufTy).Contents (Elt F) → (⟨S500000, .f32⟩ : BufTy).Contents (Elt F) → (⟨S500000, .f32⟩ : BufTy).Contents (Elt F)),
    StableHlo.binary main_v42 main_v42 main_v43 (mulf : (⟨S500000, .f32⟩ : BufTy).Contents (Elt F) → (⟨S500000, .f32⟩ : BufTy).Contents (Elt F) → (⟨S500000, .f32⟩ : BufTy).Contents (Elt F)),
    StableHlo.unary main_v28 main_v44 ((extractStridedSlice S500000x1 ![0, 2] · slices_S500000x3_S500000x1_0_2) : (⟨S500000x3, .f32⟩ : BufTy).Contents (Elt F) → (⟨S500000x1, .f32⟩ : BufTy).Contents (Elt F)),
    StableHlo.reshape main_v44 main_v45 rfl shapeCasts_S500000x1_S500000,
    StableHlo.unary main_v28 main_v46 ((extractStridedSlice S500000x1 ![0, 2] · slices_S500000x3_S500000x1_0_2) : (⟨S500000x3, .f32⟩ : BufTy).Contents (Elt F) → (⟨S500000x1, .f32⟩ : BufTy).Contents (Elt F)),
    StableHlo.reshape main_v46 main_v47 rfl shapeCasts_S500000x1_S500000,
    StableHlo.binary main_v45 main_v47 main_v48 (mulf : (⟨S500000, .f32⟩ : BufTy).Contents (Elt F) → (⟨S500000, .f32⟩ : BufTy).Contents (Elt F) → (⟨S500000, .f32⟩ : BufTy).Contents (Elt F)),
    StableHlo.binary main_v43 main_v48 main_v49 (addf : (⟨S500000, .f32⟩ : BufTy).Contents (Elt F) → (⟨S500000, .f32⟩ : BufTy).Contents (Elt F) → (⟨S500000, .f32⟩ : BufTy).Contents (Elt F)),
    StableHlo.unary main_v49 main_v50 (Host.sqrt : (⟨S500000, .f32⟩ : BufTy).Contents (Elt F) → (⟨S500000, .f32⟩ : BufTy).Contents (Elt F)),
    StableHlo.binary main_v35 main_v50 main_v51 (subf : (⟨S500000, .f32⟩ : BufTy).Contents (Elt F) → (⟨S500000, .f32⟩ : BufTy).Contents (Elt F) → (⟨S500000, .f32⟩ : BufTy).Contents (Elt F)),
    StableHlo.binary main_v35 main_v50 main_v52 (addf : (⟨S500000, .f32⟩ : BufTy).Contents (Elt F) → (⟨S500000, .f32⟩ : BufTy).Contents (Elt F) → (⟨S500000, .f32⟩ : BufTy).Contents (Elt F)),
    StableHlo.unary main_v51 main_v53 (broadcastInDim S500000x1 ![0] bcast_S500000_S500000x1_0 : (⟨S500000, .f32⟩ : BufTy).Contents (Elt F) → (⟨S500000x1, .f32⟩ : BufTy).Contents (Elt F)),
    StableHlo.unary main_v52 main_v54 (broadcastInDim S500000x1 ![0] bcast_S500000_S500000x1_0 : (⟨S500000, .f32⟩ : BufTy).Contents (Elt F) → (⟨S500000x1, .f32⟩ : BufTy).Contents (Elt F)),
    StableHlo.binary main_v53 main_v54 main_v55 ((fun a b => concatenate S500000x2 1 [⟨S500000x1, a⟩, ⟨S500000x1, b⟩] concatenates_S500000x1_S500000x1_S500000x2_d1) : (⟨S500000x1, .f32⟩ : BufTy).Contents (Elt F) → (⟨S500000x1, .f32⟩ : BufTy).Contents (Elt F) → (⟨S500000x2, .f32⟩ : BufTy).Contents (Elt F)) ]

/-- The first 68 of them: everything before the final concatenation. -/
abbrev opsInit : List (HloOp τ sig (Elt F)) :=
  [ StableHlo.nullary main_c (fun i => lit0 (S3.rowMajor i)),
    StableHlo.nullary main_c_0 (constantI S3 1 0#1),
    StableHlo.nullary main_c_1 (fun i => lit1 (S3.rowMajor i)),
    StableHlo.nullary main_c_2 (constantI S3 1 0#1),
    StableHlo.reshape main_arg0 main_v0 rfl shapeCasts_S500000x9_S500000x3x3,
    StableHlo.nullary main_c_3 (constantI S_ 32 3#32),
    StableHlo.unary main_c_3 main_v1 (broadcastInDim S3 ![] bcast_S_S3 : (⟨S_, .i32⟩ : BufTy).Contents (Elt F) → (⟨S3, .i32⟩ : BufTy).Contents (Elt F)),
    StableHlo.binary main_c main_v1 main_v2 (addi : (⟨S3, .i32⟩ : BufTy).Contents (Elt F) → (⟨S3, .i32⟩ : BufTy).Contents (Elt F) → (⟨S3, .i32⟩ : BufTy).Contents (Elt F)),
    StableHlo.ternary main_c_0 main_v2 main_c main_v3 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v3 main_v4 (broadcastInDim S3x1 ![0] bcast_S3_S3x1_0 : (⟨S3, .i32⟩ : BufTy).Contents (Elt F) → (⟨S3x1, .i32⟩ : BufTy).Contents (Elt F)),
    StableHlo.binary main_v0 main_v4 main_v5 ((fun x i => Host.gather gather_S500000x3x3_S3x1_S500000x3x3_02_1_n_n_1_1_50000013 x i) : (⟨S500000x3x3, .f32⟩ : BufTy).Contents (Elt F) → (⟨S3x1, .i32⟩ : BufTy).Contents (Elt F) → (⟨S500000x3x3, .f32⟩ : BufTy).Contents (Elt F)),
    StableHlo.nullary main_c_4 (constantI S_ 32 3#32),
    StableHlo.unary main_c_4 main_v6 (broadcastInDim S3 ![] bcast_S_S3 : (⟨S_, .i32⟩ : BufTy).Contents (Elt F) → (⟨S3, .i32⟩ : BufTy).Contents (Elt F)),
    StableHlo.binary main_c_1 main_v6 main_v7 (addi : (⟨S3, .i32⟩ : BufTy).Contents (Elt F) → (⟨S3, .i32⟩ : BufTy).Contents (Elt F) → (⟨S3, .i32⟩ : BufTy).Contents (Elt F)),
    StableHlo.ternary main_c_2 main_v7 main_c_1 main_v8 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v8 main_v9 (broadcastInDim S3x1 ![0] bcast_S3_S3x1_0 : (⟨S3, .i32⟩ : BufTy).Contents (Elt F) → (⟨S3x1, .i32⟩ : BufTy).Contents (Elt F)),
    StableHlo.binary main_v0 main_v9 main_v10 ((fun x i => Host.gather gather_S500000x3x3_S3x1_S500000x3x3_02_1_n_n_1_1_50000013 x i) : (⟨S500000x3x3, .f32⟩ : BufTy).Contents (Elt F) → (⟨S3x1, .i32⟩ : BufTy).Contents (Elt F) → (⟨S500000x3x3, .f32⟩ : BufTy).Contents (Elt F)),
    StableHlo.binary main_v5 main_v10 main_v11 (subf : (⟨S500000x3x3, .f32⟩ : BufTy).Contents (Elt F) → (⟨S500000x3x3, .f32⟩ : BufTy).Contents (Elt F) → (⟨S500000x3x3, .f32⟩ : BufTy).Contents (Elt F)),
    StableHlo.binary main_v11 main_v11 main_v12 (mulf : (⟨S500000x3x3, .f32⟩ : BufTy).Contents (Elt F) → (⟨S500000x3x3, .f32⟩ : BufTy).Contents (Elt F) → (⟨S500000x3x3, .f32⟩ : BufTy).Contents (Elt F)),
    StableHlo.nullary main_cst (constant S_ .f32 0x00000000#32),
    StableHlo.binary main_v12 main_cst main_v13 ((fun x v => Host.reduceAdd x v reducesTo_S500000x3x3_S500000x3_d2 h_S_) : (⟨S500000x3x3, .f32⟩ : BufTy).Contents (Elt F) → (⟨S_, .f32⟩ : BufTy).Contents (Elt F) → (⟨S500000x3, .f32⟩ : BufTy).Contents (Elt F)),
    StableHlo.unary main_v13 main_v14 (Host.sqrt : (⟨S500000x3, .f32⟩ : BufTy).Contents (Elt F) → (⟨S500000x3, .f32⟩ : BufTy).Contents (Elt F)),
    StableHlo.binary main_v14 main_arg1 main_v15 ((fun l r => Host.dotGeneral dot_S500000x3_S3x256_S500000x256_1_0_0_1_n_n none l r) : (⟨S500000x3, .f32⟩ : BufTy).Contents (Elt F) → (⟨S3x256, .f32⟩ : BufTy).Contents (Elt F) → (⟨S500000x256, .f32⟩ : BufTy).Contents (Elt F)),
    StableHlo.unary main_arg2 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S500000x256 ![0, 1] bcast_S1x256_S500000x256_0_1 : (⟨S1x256, .f32⟩ : BufTy).Contents (Elt F) → (⟨S500000x256, .f32⟩ : BufTy).Contents (Elt F)),
    StableHlo.binary main_v15 main_v17 main_v18 (addf : (⟨S500000x256, .f32⟩ : BufTy).Contents (Elt F) → (⟨S500000x256, .f32⟩ : BufTy).Contents (Elt F) → (⟨S500000x256, .f32⟩ : BufTy).Contents (Elt F)),
    StableHlo.TRef.nullary main_call0.cst (constant S_ .f32 0x00000000#32),
    StableHlo.TRef.unary main_call0.cst main_call0.v0 (broadcastInDim S500000x256 ![] bcast_S_S500000x256),
    StableHlo.TRef.binary (.of main_v18) main_call0.v0 main_call0.v1 maximumf,
    StableHlo.binary main_v19 main_arg3 main_v20 ((fun l r => Host.dotGeneral dot_S500000x256_S256x256_S500000x256_1_0_0_1_n_n none l r) : (⟨S500000x256, .f32⟩ : BufTy).Contents (Elt F) → (⟨S256x256, .f32⟩ : BufTy).Contents (Elt F) → (⟨S500000x256, .f32⟩ : BufTy).Contents (Elt F)),
    StableHlo.unary main_arg4 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S500000x256 ![0, 1] bcast_S1x256_S500000x256_0_1 : (⟨S1x256, .f32⟩ : BufTy).Contents (Elt F) → (⟨S500000x256, .f32⟩ : BufTy).Contents (Elt F)),
    StableHlo.binary main_v20 main_v22 main_v23 (addf : (⟨S500000x256, .f32⟩ : BufTy).Contents (Elt F) → (⟨S500000x256, .f32⟩ : BufTy).Contents (Elt F) → (⟨S500000x256, .f32⟩ : BufTy).Contents (Elt F)),
    StableHlo.TRef.nullary main_call1.cst (constant S_ .f32 0x00000000#32),
    StableHlo.TRef.unary main_call1.cst main_call1.v0 (broadcastInDim S500000x256 ![] bcast_S_S500000x256),
    StableHlo.TRef.binary (.of main_v23) main_call1.v0 main_call1.v1 maximumf,
    StableHlo.binary main_v24 main_arg5 main_v25 ((fun l r => Host.dotGeneral dot_S500000x256_S256x3_S500000x3_1_0_0_1_n_n none l r) : (⟨S500000x256, .f32⟩ : BufTy).Contents (Elt F) → (⟨S256x3, .f32⟩ : BufTy).Contents (Elt F) → (⟨S500000x3, .f32⟩ : BufTy).Contents (Elt F)),
    StableHlo.unary main_arg6 main_v26 (broadcastInDim S1x3 ![1] bcast_S3_S1x3_1 : (⟨S3, .f32⟩ : BufTy).Contents (Elt F) → (⟨S1x3, .f32⟩ : BufTy).Contents (Elt F)),
    StableHlo.unary main_v26 main_v27 (broadcastInDim S500000x3 ![0, 1] bcast_S1x3_S500000x3_0_1 : (⟨S1x3, .f32⟩ : BufTy).Contents (Elt F) → (⟨S500000x3, .f32⟩ : BufTy).Contents (Elt F)),
    StableHlo.binary main_v25 main_v27 main_v28 (addf : (⟨S500000x3, .f32⟩ : BufTy).Contents (Elt F) → (⟨S500000x3, .f32⟩ : BufTy).Contents (Elt F) → (⟨S500000x3, .f32⟩ : BufTy).Contents (Elt F)),
    StableHlo.unary main_v28 main_v29 ((extractStridedSlice S500000x1 ![0, 0] · slices_S500000x3_S500000x1_0_0) : (⟨S500000x3, .f32⟩ : BufTy).Contents (Elt F) → (⟨S500000x1, .f32⟩ : BufTy).Contents (Elt F)),
    StableHlo.reshape main_v29 main_v30 rfl shapeCasts_S500000x1_S500000,
    StableHlo.unary main_v28 main_v31 ((extractStridedSlice S500000x1 ![0, 1] · slices_S500000x3_S500000x1_0_1) : (⟨S500000x3, .f32⟩ : BufTy).Contents (Elt F) → (⟨S500000x1, .f32⟩ : BufTy).Contents (Elt F)),
    StableHlo.reshape main_v31 main_v32 rfl shapeCasts_S500000x1_S500000,
    StableHlo.binary main_v30 main_v32 main_v33 (addf : (⟨S500000, .f32⟩ : BufTy).Contents (Elt F) → (⟨S500000, .f32⟩ : BufTy).Contents (Elt F) → (⟨S500000, .f32⟩ : BufTy).Contents (Elt F)),
    StableHlo.nullary main_cst_5 (constant S_ .f32 0x3F000000#32),
    StableHlo.unary main_cst_5 main_v34 (broadcastInDim S500000 ![] bcast_S_S500000 : (⟨S_, .f32⟩ : BufTy).Contents (Elt F) → (⟨S500000, .f32⟩ : BufTy).Contents (Elt F)),
    StableHlo.binary main_v34 main_v33 main_v35 (mulf : (⟨S500000, .f32⟩ : BufTy).Contents (Elt F) → (⟨S500000, .f32⟩ : BufTy).Contents (Elt F) → (⟨S500000, .f32⟩ : BufTy).Contents (Elt F)),
    StableHlo.unary main_v28 main_v36 ((extractStridedSlice S500000x1 ![0, 0] · slices_S500000x3_S500000x1_0_0) : (⟨S500000x3, .f32⟩ : BufTy).Contents (Elt F) → (⟨S500000x1, .f32⟩ : BufTy).Contents (Elt F)),
    StableHlo.reshape main_v36 main_v37 rfl shapeCasts_S500000x1_S500000,
    StableHlo.unary main_v28 main_v38 ((extractStridedSlice S500000x1 ![0, 1] · slices_S500000x3_S500000x1_0_1) : (⟨S500000x3, .f32⟩ : BufTy).Contents (Elt F) → (⟨S500000x1, .f32⟩ : BufTy).Contents (Elt F)),
    StableHlo.reshape main_v38 main_v39 rfl shapeCasts_S500000x1_S500000,
    StableHlo.binary main_v37 main_v39 main_v40 (subf : (⟨S500000, .f32⟩ : BufTy).Contents (Elt F) → (⟨S500000, .f32⟩ : BufTy).Contents (Elt F) → (⟨S500000, .f32⟩ : BufTy).Contents (Elt F)),
    StableHlo.nullary main_cst_6 (constant S_ .f32 0x3F000000#32),
    StableHlo.unary main_cst_6 main_v41 (broadcastInDim S500000 ![] bcast_S_S500000 : (⟨S_, .f32⟩ : BufTy).Contents (Elt F) → (⟨S500000, .f32⟩ : BufTy).Contents (Elt F)),
    StableHlo.binary main_v41 main_v40 main_v42 (mulf : (⟨S500000, .f32⟩ : BufTy).Contents (Elt F) → (⟨S500000, .f32⟩ : BufTy).Contents (Elt F) → (⟨S500000, .f32⟩ : BufTy).Contents (Elt F)),
    StableHlo.binary main_v42 main_v42 main_v43 (mulf : (⟨S500000, .f32⟩ : BufTy).Contents (Elt F) → (⟨S500000, .f32⟩ : BufTy).Contents (Elt F) → (⟨S500000, .f32⟩ : BufTy).Contents (Elt F)),
    StableHlo.unary main_v28 main_v44 ((extractStridedSlice S500000x1 ![0, 2] · slices_S500000x3_S500000x1_0_2) : (⟨S500000x3, .f32⟩ : BufTy).Contents (Elt F) → (⟨S500000x1, .f32⟩ : BufTy).Contents (Elt F)),
    StableHlo.reshape main_v44 main_v45 rfl shapeCasts_S500000x1_S500000,
    StableHlo.unary main_v28 main_v46 ((extractStridedSlice S500000x1 ![0, 2] · slices_S500000x3_S500000x1_0_2) : (⟨S500000x3, .f32⟩ : BufTy).Contents (Elt F) → (⟨S500000x1, .f32⟩ : BufTy).Contents (Elt F)),
    StableHlo.reshape main_v46 main_v47 rfl shapeCasts_S500000x1_S500000,
    StableHlo.binary main_v45 main_v47 main_v48 (mulf : (⟨S500000, .f32⟩ : BufTy).Contents (Elt F) → (⟨S500000, .f32⟩ : BufTy).Contents (Elt F) → (⟨S500000, .f32⟩ : BufTy).Contents (Elt F)),
    StableHlo.binary main_v43 main_v48 main_v49 (addf : (⟨S500000, .f32⟩ : BufTy).Contents (Elt F) → (⟨S500000, .f32⟩ : BufTy).Contents (Elt F) → (⟨S500000, .f32⟩ : BufTy).Contents (Elt F)),
    StableHlo.unary main_v49 main_v50 (Host.sqrt : (⟨S500000, .f32⟩ : BufTy).Contents (Elt F) → (⟨S500000, .f32⟩ : BufTy).Contents (Elt F)),
    StableHlo.binary main_v35 main_v50 main_v51 (subf : (⟨S500000, .f32⟩ : BufTy).Contents (Elt F) → (⟨S500000, .f32⟩ : BufTy).Contents (Elt F) → (⟨S500000, .f32⟩ : BufTy).Contents (Elt F)),
    StableHlo.binary main_v35 main_v50 main_v52 (addf : (⟨S500000, .f32⟩ : BufTy).Contents (Elt F) → (⟨S500000, .f32⟩ : BufTy).Contents (Elt F) → (⟨S500000, .f32⟩ : BufTy).Contents (Elt F)),
    StableHlo.unary main_v51 main_v53 (broadcastInDim S500000x1 ![0] bcast_S500000_S500000x1_0 : (⟨S500000, .f32⟩ : BufTy).Contents (Elt F) → (⟨S500000x1, .f32⟩ : BufTy).Contents (Elt F)),
    StableHlo.unary main_v52 main_v54 (broadcastInDim S500000x1 ![0] bcast_S500000_S500000x1_0 : (⟨S500000, .f32⟩ : BufTy).Contents (Elt F) → (⟨S500000x1, .f32⟩ : BufTy).Contents (Elt F)) ]

/-- The last: the two eigenvalue columns side by side. -/
abbrev opLast : HloOp τ sig (Elt F) :=
  StableHlo.binary main_v53 main_v54 main_v55 ((fun a b => concatenate S500000x2 1 [⟨S500000x1, a⟩, ⟨S500000x1, b⟩] concatenates_S500000x1_S500000x1_S500000x2_d1) : (⟨S500000x1, .f32⟩ : BufTy).Contents (Elt F) → (⟨S500000x1, .f32⟩ : BufTy).Contents (Elt F) → (⟨S500000x2, .f32⟩ : BufTy).Contents (Elt F))

set_option maxRecDepth 4096 in
/-- @main is that straight line: the two windows in order, the rectifier's definition unfolded at its two calls,
    sequencing reassociated. -/
theorem main_eq (c : Dev nD) : main (F := F) c = seq ops := by
  simp only [main, main_part0, main_part1, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., reshape_bufs_sub .., nullary_bufs_sub ..,
    unary_bufs_sub .., binary_bufs_sub .., ternary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., binary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., unary_bufs_sub .., reshape_bufs_sub ..,
    unary_bufs_sub .., reshape_bufs_sub .., binary_bufs_sub .., nullary_bufs_sub .., unary_bufs_sub .., binary_bufs_sub ..,
    unary_bufs_sub .., reshape_bufs_sub .., unary_bufs_sub .., reshape_bufs_sub .., binary_bufs_sub .., nullary_bufs_sub ..,
    unary_bufs_sub .., binary_bufs_sub .., binary_bufs_sub .., unary_bufs_sub .., reshape_bufs_sub .., unary_bufs_sub ..,
    reshape_bufs_sub .., binary_bufs_sub .., binary_bufs_sub .., unary_bufs_sub .., binary_bufs_sub .., binary_bufs_sub ..,
    unary_bufs_sub .., unary_bufs_sub .., binary_bufs_sub ..⟩

/-- The contents after two lines run one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The last layer's output as a term of the launch contents of the seven arguments. -/
def wOf (V : Valuation τ sig (Elt F)) : FVec F S500000x3 .f32 :=
  RefTerm.layer3 (RefTerm.layer2 (RefTerm.layer1 (RefTerm.bonds (V (main_arg0 : DevRef τ sig))) (V (main_arg1 : DevRef τ sig))
    (V (main_arg2 : DevRef τ sig))) (V (main_arg3 : DevRef τ sig)) (V (main_arg4 : DevRef τ sig))) (V (main_arg5 : DevRef τ sig))
    (V (main_arg6 : DevRef τ sig))

/-- The half-trace of a row's matrix. -/
def meanOf (w : FVec F S500000x3 .f32) : FVec F S500000 .f32 :=
  mulf RefTerm.half (addf (RefTerm.col0 w) (RefTerm.col1 w))

/-- The radius: the root of the squared half-difference of the diagonal plus the squared off-diagonal entry. -/
def radOf (w : FVec F S500000x3 .f32) : FVec F S500000 .f32 :=
  Host.sqrt (addf (mulf (mulf RefTerm.half (subf (RefTerm.col0 w) (RefTerm.col1 w))) (mulf RefTerm.half (subf (RefTerm.col0 w) (RefTerm.col1 w))))
    (mulf (RefTerm.col2 w) (RefTerm.col2 w)))

set_option maxHeartbeats 4000000 in
/-- Before the concatenation the first column's buffer holds the smaller eigenvalue of every row, as a column. -/
theorem v53_eq (V : Valuation τ sig (Elt F)) :
    after opsInit V (main_v53 : DevRef τ sig)
      = broadcastInDim S500000x1 ![0] bcast_S500000_S500000x1_0 (subf (meanOf (wOf V)) (radOf (wOf V))) := by
  after_results_simp
  rfl

set_option maxHeartbeats 4000000 in
/-- And the second column's buffer the larger. -/
theorem v54_eq (V : Valuation τ sig (Elt F)) :
    after opsInit V (main_v54 : DevRef τ sig)
      = broadcastInDim S500000x1 ![0] bcast_S500000_S500000x1_0 (addf (meanOf (wOf V)) (radOf (wOf V))) := by
  after_results_simp
  rfl

set_option maxHeartbeats 4000000 in
/-- The result buffer after the whole line: the concatenation of the two columns, which is the reference's term. -/
theorem out_eq (V : Valuation τ sig (Elt F)) :
    after ops V (main_v55 : DevRef τ sig)
      = RefTerm.refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  have e : (ops : List (HloOp τ sig (Elt F))) = opsInit ++ [opLast] := rfl
  rw [e, after_append]
  show (opLast (F := F)).result (after opsInit V) (main_v55 : DevRef τ sig) = _
  rw [binary_result, v53_eq, v54_eq]
  rfl

/-! No operation writes an argument's buffer. -/
set_option maxHeartbeats 4000000 in
theorem arg0_eq (V : Valuation τ sig (Elt F)) :
    after ops V (main_arg0 : DevRef τ sig) = V (main_arg0 : DevRef τ sig) := by
  after_results_simp

set_option maxHeartbeats 4000000 in
theorem arg1_eq (V : Valuation τ sig (Elt F)) :
    after ops V (main_arg1 : DevRef τ sig) = V (main_arg1 : DevRef τ sig) := by
  after_results_simp

set_option maxHeartbeats 4000000 in
theorem arg2_eq (V : Valuation τ sig (Elt F)) :
    after ops V (main_arg2 : DevRef τ sig) = V (main_arg2 : DevRef τ sig) := by
  after_results_simp

set_option maxHeartbeats 4000000 in
theorem arg3_eq (V : Valuation τ sig (Elt F)) :
    after ops V (main_arg3 : DevRef τ sig) = V (main_arg3 : DevRef τ sig) := by
  after_results_simp

set_option maxHeartbeats 4000000 in
theorem arg4_eq (V : Valuation τ sig (Elt F)) :
    after ops V (main_arg4 : DevRef τ sig) = V (main_arg4 : DevRef τ sig) := by
  after_results_simp

set_option maxHeartbeats 4000000 in
theorem arg5_eq (V : Valuation τ sig (Elt F)) :
    after ops V (main_arg5 : DevRef τ sig) = V (main_arg5 : DevRef τ sig) := by
  after_results_simp

set_option maxHeartbeats 4000000 in
theorem arg6_eq (V : Valuation τ sig (Elt F)) :
    after ops V (main_arg6 : DevRef τ sig) = V (main_arg6 : DevRef τ sig) := by
  after_results_simp

/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = RefTerm.refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v55).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefRun

end
-- ==== Proof.RefValue.lean ====
/-
  The reference's result term, read index by index at the exact values, is the row function of the matching row of `x`.
-/
import proofs.«113246_j11072425689287_1_alg».proof.Proof.RefTerm
import proofs.«113246_j11072425689287_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefTerm Idealize.ShloMosaic Idealize.ShloMosaic.ValueIdx

/-- The table's column of start indices, read at pair p. -/
theorem pairIdx_apply (tbl : IVec S3 32) (p : Fin 3) (q : Fin 1) :
    pairIdx (F := Ideal) tbl (ix2 p q) = tbl (ix1 p) := by
  unfold pairIdx
  refine (broadcastInDim_apply _ _ _ (ix2 p q) (ix1 p) (fun a => by match a with | ⟨0, _⟩ => rfl)).trans ?_
  rfl

/-- The gather's dimension numbers: whole rows and coordinates kept, the point axis indexed by the start index. -/
abbrev GD := gather_S500000x3x3_S3x1_S500000x3x3_02_1_n_n_1_1_50000013

/-- The operand index of result entry (b, p, k) has row b. -/
theorem opIdx0 (idx : IVec S3x1 32) (b : Fin 500000) (p k : Fin 3) :
    (GD.operandIdx (ix3 b p k) idx ⟨0, by decide⟩).val = b.val := by
  show GD.start (ix3 b p k) idx ⟨0, by decide⟩ + GD.batchCoord (ix3 b p k) ⟨0, by decide⟩ + GD.offCoord (ix3 b p k) ⟨0, by decide⟩ = _
  rw [GatherDims.batchCoord_eq_zero _ _ _ List.not_mem_nil]
  unfold GatherDims.start GatherDims.offCoord
  rw [dif_neg (by decide), dif_pos (by decide), Nat.add_zero, Nat.zero_add]
  rfl

/-- The operand index of result entry (b, p, k) has coordinate k. -/
theorem opIdx2 (idx : IVec S3x1 32) (b : Fin 500000) (p k : Fin 3) :
    (GD.operandIdx (ix3 b p k) idx ⟨2, by decide⟩).val = k.val := by
  show GD.start (ix3 b p k) idx ⟨2, by decide⟩ + GD.batchCoord (ix3 b p k) ⟨2, by decide⟩ + GD.offCoord (ix3 b p k) ⟨2, by decide⟩ = _
  rw [GatherDims.batchCoord_eq_zero _ _ _ List.not_mem_nil]
  unfold GatherDims.start GatherDims.offCoord
  rw [dif_neg (by decide), dif_pos (by decide), Nat.add_zero, Nat.zero_add]
  rfl

/-- The operand index of result entry (b, p, k) has as point the start index of pair p, read signed and clamped into 0..2. -/
theorem opIdx1 (idx : IVec S3x1 32) (b : Fin 500000) (p k : Fin 3) :
    (GD.operandIdx (ix3 b p k) idx ⟨1, by decide⟩).val = min (idx (ix2 p 0)).toInt.toNat 2 := by
  show GD.start (ix3 b p k) idx ⟨1, by decide⟩ + GD.batchCoord (ix3 b p k) ⟨1, by decide⟩ + GD.offCoord (ix3 b p k) ⟨1, by decide⟩ = _
  rw [GatherDims.batchCoord_eq_zero _ _ _ List.not_mem_nil]
  unfold GatherDims.start GatherDims.offCoord
  rw [dif_pos (by decide), dif_neg (by decide)]
  have hsi : GD.siIdx (ix3 b p k) ⟨List.idxOf (⟨1, by decide⟩ : Fin 3) GD.startIndexMap, by decide⟩ = ix2 p 0 := by
    funext c; refine Fin.ext ?_
    match c with
    | ⟨0, _⟩ => rfl
    | ⟨1, _⟩ => rfl
  rw [hsi]
  rfl

/-- The gathered points: entry (b, p, k) is coordinate k of point a of row b, a the start index of pair p. -/
theorem points_apply (x : FVec Ideal S500000x9 .f32) (idx : IVec S3x1 32)
    (b : Fin 500000) (p k a : Fin 3) (ha : min (idx (ix2 p 0)).toInt.toNat 2 = a.val) :
    points (F := Ideal) x idx (ix3 b p k) = x (ix2 b (Cert.Spec.col a k)) := by
  unfold points Host.gather
  refine shapeCast_apply x _ _ (ix2 b (Cert.Spec.col a k)) ?_
  rw [Shape.rowMajor_val_two, Shape.rowMajor_val_three]
  have h0 := opIdx0 idx b p k
  have h1 := opIdx1 idx b p k
  have h2 := opIdx2 idx b p k
  rw [ha] at h1
  show b.val * 9 + (3 * a.val + k.val) = ((GD.operandIdx (ix3 b p k) idx ⟨0, by decide⟩).val * 3 + (GD.operandIdx (ix3 b p k) idx ⟨1, by decide⟩).val) * 3 + (GD.operandIdx (ix3 b p k) idx ⟨2, by decide⟩).val
  rw [h0, h1, h2]
  omega

/-- The row-major position of a rank-1 index of extent 3 is its coordinate. -/
theorem rowMajor_ix1_3 (p : Fin 3) : S3.rowMajor (ix1 p) = p := Fin.ext (Shape.rowMajor_val_one _)

/-- The first table's start index of pair p is the pair's first point. -/
theorem start0 (p : Fin 3) :
    min ((pairIdx (F := Ideal) (fun i => lit0 (S3.rowMajor i))) (ix2 p 0)).toInt.toNat 2 = (Cert.Spec.iu p).val := by
  rw [pairIdx_apply]
  show min (lit0 (S3.rowMajor (ix1 p))).toInt.toNat 2 = _
  rw [rowMajor_ix1_3]
  match p with
  | ⟨0, _⟩ => rfl
  | ⟨1, _⟩ => rfl
  | ⟨2, _⟩ => rfl

/-- The second table's start index of pair p is the pair's second point. -/
theorem start1 (p : Fin 3) :
    min ((pairIdx (F := Ideal) (fun i => lit1 (S3.rowMajor i))) (ix2 p 0)).toInt.toNat 2 = (Cert.Spec.ju p).val := by
  rw [pairIdx_apply]
  show min (lit1 (S3.rowMajor (ix1 p))).toInt.toNat 2 = _
  rw [rowMajor_ix1_3]
  match p with
  | ⟨0, _⟩ => rfl
  | ⟨1, _⟩ => rfl
  | ⟨2, _⟩ => rfl

/-- A root read at an index. -/
theorem sqrt3_apply (v : FVec Ideal S500000x3 .f32) (j : S500000x3.Idx) :
    Host.sqrt v j = Ideal.sqrt (v j) := rfl

/-- A sum over the last axis, from the zero word, read at an index. -/
theorem reduce_apply (v : FVec Ideal S500000x3x3 .f32) (j : S500000x3.Idx) :
    (Host.reduceAdd (F := Ideal) v (constant (F := Ideal) S_ .f32 0x00000000#32) reducesTo_S500000x3x3_S500000x3_d2 h_S_) j
      = (Ideal.hostReduceAdd reducesTo_S500000x3x3_S500000x3_d2 v (Ideal.ofBits .f32 0x00000000#32) j) := rfl

/-- The three distances of row b: the root of the summed squared differences of the pair's two points. -/
theorem bonds_apply (x : FVec Ideal S500000x9 .f32) (b : Fin 500000) (p : Fin 3) :
    bonds (F := Ideal) x (ix2 b p) = Cert.Spec.bond (fun c => x (ix2 b c)) p := by
  have hR : S500000x3x3.Reduces [2] S500000x3 := by decide
  unfold bonds Cert.Spec.bond
  refine (sqrt3_apply _ _).trans ?_
  refine congrArg Ideal.sqrt ?_
  refine (reduce_apply _ _).trans ?_
  rw [Ideal.hostReduceAdd_single reducesTo_S500000x3x3_S500000x3_d2 hR, Ideal.ofBits_zero_f32, zero_add]
  show ∑ k : Fin 3, _ = _
  refine Finset.sum_congr rfl fun k _ => ?_
  have hl : hR.lift (ix2 b p) k = ix3 b p k := by
    funext c; refine Fin.ext ?_
    match c with
    | ⟨0, _⟩ => rfl
    | ⟨1, _⟩ => rfl
    | ⟨2, _⟩ => rfl
  rw [hl]
  show (points (F := Ideal) x _ (ix3 b p k) - points (F := Ideal) x _ (ix3 b p k)) * (points (F := Ideal) x _ (ix3 b p k) - points (F := Ideal) x _ (ix3 b p k)) = _
  rw [points_apply x _ b p k (Cert.Spec.iu p) (start0 p), points_apply x _ b p k (Cert.Spec.ju p) (start1 p)]

/-- A product of an m×k by a k×n matrix, contracting the one shared axis, read at an index: the sum over the
    contracted coordinate of the products of the entries. -/
theorem dot_plain_apply {m k n : Nat} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (F := Ideal) (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The maximum with the zero word, read at an index. -/
theorem relu_apply (z : FVec Ideal S500000x256 .f32) (j : S500000x256.Idx) :
    relu (F := Ideal) z j = max (z j) Cert.Spec.zeroW := rfl

/-- A bias of 256 entries broadcast over the rows, read at an index. -/
theorem bias256_apply (c : FVec Ideal S256 .f32) (b : Fin 500000) (n : Fin 256) :
    broadcastInDim S500000x256 ![0, 1] bcast_S1x256_S500000x256_0_1 (broadcastInDim S1x256 ![1] bcast_S256_S1x256_1 c) (ix2 b n)
      = c (ix1 n) := by
  refine (broadcastInDim_apply _ _ _ (ix2 b n) (ix2 (0 : Fin 1) n) (fun a => by
    match a with
    | ⟨0, _⟩ => rfl
    | ⟨1, _⟩ => rfl)).trans ?_
  exact broadcastInDim_apply _ _ _ (ix2 (0 : Fin 1) n) (ix1 n) (fun a => by
    match a with
    | ⟨0, _⟩ => rfl)

/-- A bias of 3 entries broadcast over the rows, read at an index. -/
theorem bias3_apply (c : FVec Ideal S3 .f32) (b : Fin 500000) (n : Fin 3) :
    broadcastInDim S500000x3 ![0, 1] bcast_S1x3_S500000x3_0_1 (broadcastInDim S1x3 ![1] bcast_S3_S1x3_1 c) (ix2 b n)
      = c (ix1 n) := by
  refine (broadcastInDim_apply _ _ _ (ix2 b n) (ix2 (0 : Fin 1) n) (fun a => by
    match a with
    | ⟨0, _⟩ => rfl
    | ⟨1, _⟩ => rfl)).trans ?_
  exact broadcastInDim_apply _ _ _ (ix2 (0 : Fin 1) n) (ix1 n) (fun a => by
    match a with
    | ⟨0, _⟩ => rfl)

/-- The first layer at row b is the first dense function of the row's distances. -/
theorem layer1_apply (r : FVec Ideal S500000x3 .f32) (W1 : FVec Ideal S3x256 .f32) (b1 : FVec Ideal S256 .f32)
    (b : Fin 500000) (n : Fin 256) :
    layer1 (F := Ideal) r W1 b1 (ix2 b n) = Cert.Spec.dense1 W1 b1 (fun k => r (ix2 b k)) n := by
  unfold layer1 Cert.Spec.dense1
  rw [relu_apply, addf_apply, bias256_apply]
  refine congrArg (fun t => max (t + b1 (ix1 n)) Cert.Spec.zeroW) ?_
  exact dot_plain_apply dot_S500000x3_S3x256_S500000x256_1_0_0_1_n_n_wf r W1 b n

/-- The second layer at row b is the second dense function of the row's first-layer outputs. -/
theorem layer2_apply (h : FVec Ideal S500000x256 .f32) (W2 : FVec Ideal S256x256 .f32) (b2 : FVec Ideal S256 .f32)
    (b : Fin 500000) (n : Fin 256) :
    layer2 (F := Ideal) h W2 b2 (ix2 b n) = Cert.Spec.dense2 W2 b2 (fun k => h (ix2 b k)) n := by
  unfold layer2 Cert.Spec.dense2
  rw [relu_apply, addf_apply, bias256_apply]
  refine congrArg (fun t => max (t + b2 (ix1 n)) Cert.Spec.zeroW) ?_
  exact dot_plain_apply dot_S500000x256_S256x256_S500000x256_1_0_0_1_n_n_wf h W2 b n

/-- The third layer at row b is the third dense function of the row's second-layer outputs. -/
theorem layer3_apply (h : FVec Ideal S500000x256 .f32) (W3 : FVec Ideal S256x3 .f32) (b3 : FVec Ideal S3 .f32)
    (b : Fin 500000) (n : Fin 3) :
    layer3 (F := Ideal) h W3 b3 (ix2 b n) = Cert.Spec.dense3 W3 b3 (fun k => h (ix2 b k)) n := by
  unfold layer3 Cert.Spec.dense3
  rw [addf_apply, bias3_apply]
  refine congrArg (fun t => t + b3 (ix1 n)) ?_
  exact dot_plain_apply dot_S500000x256_S256x3_S500000x3_1_0_0_1_n_n_wf h W3 b n

/-- Column 0 of the last layer's output, read at row b. -/
theorem col0_apply (w : FVec Ideal S500000x3 .f32) (b : Fin 500000) : col0 (F := Ideal) w (ix1 b) = w (ix2 b 0) := by
  unfold col0
  refine (shapeCast_apply _ _ (ix1 b) (ix2 b (0 : Fin 1)) ?_).trans ?_
  · rw [Shape.rowMajor_val_two, Shape.rowMajor_val_one]
    show b.val * 1 + 0 = b.val
    omega
  · exact slice2_axis1_apply 0 w _ b 0 0 rfl

/-- Column 1 of the last layer's output, read at row b. -/
theorem col1_apply (w : FVec Ideal S500000x3 .f32) (b : Fin 500000) : col1 (F := Ideal) w (ix1 b) = w (ix2 b 1) := by
  unfold col1
  refine (shapeCast_apply _ _ (ix1 b) (ix2 b (0 : Fin 1)) ?_).trans ?_
  · rw [Shape.rowMajor_val_two, Shape.rowMajor_val_one]
    show b.val * 1 + 0 = b.val
    omega
  · exact slice2_axis1_apply 1 w _ b 0 1 rfl

/-- Column 2 of the last layer's output, read at row b. -/
theorem col2_apply (w : FVec Ideal S500000x3 .f32) (b : Fin 500000) : col2 (F := Ideal) w (ix1 b) = w (ix2 b 2) := by
  unfold col2
  refine (shapeCast_apply _ _ (ix1 b) (ix2 b (0 : Fin 1)) ?_).trans ?_
  · rw [Shape.rowMajor_val_two, Shape.rowMajor_val_one]
    show b.val * 1 + 0 = b.val
    omega
  · exact slice2_axis1_apply 2 w _ b 0 2 rfl

/-- One half, read at a row. -/
theorem half_apply (i : S500000.Idx) : half (F := Ideal) i = Cert.Spec.halfW := rfl

/-- A root over the rows, read at a row. -/
theorem sqrt1_apply (v : FVec Ideal S500000 .f32) (i : S500000.Idx) : Host.sqrt v i = Ideal.sqrt (v i) := rfl

/-- A vector over the rows as a column, read at an index. -/
theorem column_apply (v : FVec Ideal S500000 .f32) (b : Fin 500000) (q : Fin 1) :
    broadcastInDim S500000x1 ![0] bcast_S500000_S500000x1_0 v (ix2 b q) = v (ix1 b) :=
  broadcastInDim_apply _ _ _ (ix2 b q) (ix1 b) (fun a => by
    match a with
    | ⟨0, _⟩ => rfl)

/-- The smaller eigenvalue at row b. -/
theorem eigs_apply0 (w : FVec Ideal S500000x3 .f32) (b : Fin 500000) :
    eigs (F := Ideal) w (ix2 b (0 : Fin 2)) = Cert.Spec.eig (fun n => w (ix2 b n)) 0 := by
  unfold eigs Cert.Spec.eig
  rw [if_pos (show (0 : Fin 2).val = 0 from rfl)]
  refine (concatenate_pair_apply_left (t := S500000x2) (s₁ := S500000x1) (s₂ := S500000x1) _ _ _ _ (ix2 b (0 : Fin 2)) rfl
    (ix2 b (0 : Fin 1)) (fun a => by
      match a with
      | ⟨0, _⟩ => rfl
      | ⟨1, _⟩ => rfl)).trans ?_
  refine (column_apply _ b 0).trans ?_
  simp only [subf_apply, addf_apply, mulf_apply, half_apply, sqrt1_apply, col0_apply, col1_apply, col2_apply]

/-- The larger eigenvalue at row b. -/
theorem eigs_apply1 (w : FVec Ideal S500000x3 .f32) (b : Fin 500000) :
    eigs (F := Ideal) w (ix2 b (1 : Fin 2)) = Cert.Spec.eig (fun n => w (ix2 b n)) 1 := by
  unfold eigs Cert.Spec.eig
  rw [if_neg (show ¬ (1 : Fin 2).val = 0 by decide)]
  refine (concatenate_pair_apply_right (t := S500000x2) (s₁ := S500000x1) (s₂ := S500000x1) _ _ _ _ (ix2 b (1 : Fin 2)) rfl rfl
    (ix2 b (0 : Fin 1)) (fun a ha => by
      match a with
      | ⟨0, _⟩ => rfl
      | ⟨1, _⟩ => exact absurd rfl ha) rfl).trans ?_
  refine (column_apply _ b 0).trans ?_
  simp only [subf_apply, addf_apply, mulf_apply, half_apply, sqrt1_apply, col0_apply, col1_apply, col2_apply]

/-- The two eigenvalues at row b are the eigenvalue function of the row's three last-layer outputs. -/
theorem eigs_apply (w : FVec Ideal S500000x3 .f32) (b : Fin 500000) (j : Fin 2) :
    eigs (F := Ideal) w (ix2 b j) = Cert.Spec.eig (fun n => w (ix2 b n)) j := by
  match j with
  | ⟨0, _⟩ => exact eigs_apply0 w b
  | ⟨1, _⟩ => exact eigs_apply1 w b

/-- The reference's term is `Spec.G` of its arguments. -/
theorem refTerm_eq (x : FVec Ideal S500000x9 .f32) (W1 : FVec Ideal S3x256 .f32) (b1 : FVec Ideal S256 .f32)
    (W2 : FVec Ideal S256x256 .f32) (b2 : FVec Ideal S256 .f32) (W3 : FVec Ideal S256x3 .f32) (b3 : FVec Ideal S3 .f32) :
    refTerm (F := Ideal) x W1 b1 W2 b2 W3 b3 = Cert.Spec.G x W1 b1 W2 b2 W3 b3 := by
  funext i
  obtain ⟨b, j, rfl⟩ : ∃ (b : Fin 500000) (j : Fin 2), i = ix2 b j := ⟨i 0, i 1, eq_ix2 i⟩
  unfold refTerm Cert.Spec.G Cert.Spec.rowOut
  rw [eigs_apply]
  have h1 : (fun k => layer1 (F := Ideal) (bonds (F := Ideal) x) W1 b1 (ix2 b k))
      = Cert.Spec.dense1 W1 b1 (Cert.Spec.bond (fun c => x (ix2 b c))) := by
    funext n
    rw [layer1_apply]
    exact congrArg (fun r => Cert.Spec.dense1 W1 b1 r n) (funext fun p => bonds_apply x b p)
  have h2 : (fun k => layer2 (F := Ideal) (layer1 (F := Ideal) (bonds (F := Ideal) x) W1 b1) W2 b2 (ix2 b k))
      = Cert.Spec.dense2 W2 b2 (Cert.Spec.dense1 W1 b1 (Cert.Spec.bond (fun c => x (ix2 b c)))) := by
    funext n
    rw [layer2_apply, h1]
  have h3 : (fun k => layer3 (F := Ideal) (layer2 (F := Ideal) (layer1 (F := Ideal) (bonds (F := Ideal) x) W1 b1) W2 b2) W3 b3 (ix2 b k))
      = Cert.Spec.dense3 W3 b3 (Cert.Spec.dense2 W2 b2 (Cert.Spec.dense1 W1 b1 (Cert.Spec.bond (fun c => x (ix2 b c))))) := by
    funext n
    rw [layer3_apply, h2]
  rw [h3]

end Cert.ReferenceIdeal.RefValue

end
-- ==== Proof.lean ====
/- The proof of `Cert.Claim` (proofs.«113246_j11072425689287_1_alg».proof.Defs).

   Both programs map a row of `x` — three points of ℝ³ — to the two eigenvalues of a symmetric 2×2 matrix whose three
   entries a three-layer perceptron computes from the three distances between the points (`Spec.rowOut`, Proof/Spec.lean).
   The kernel does it 2000 rows at a grid point, with the weights resident; its products are matrix products into a zero
   accumulator, its row sums lane reductions, and its changes of float format are the identity on exact values. The reference
   does it on the whole array: a reshape and two gathers for the pairs of points, `dot_general` for the layers, column
   slices for the matrix entries. Read index by index at the exact values both are `Spec.G` of the arguments:
   the kernel's stored block is (Proof/KernelPayload.lean), so the result array is once the 250 blocks are laid side by side
   (Proof/KernelValue.lean, over the generated value leg); the reference's composed term is (Proof/RefTerm.lean,
   Proof/RefValue.lean), and its run ends at that term (Proof/RefRun.lean). No law of the extended reals beyond the
   re-indexing of finite sums is used, so finiteness of the inputs is never opened. The kernels' frames are the generated
   ones; the reference's frame is its run with the result dropped; the ideal pass rewrote nothing, so `preserves` is `True`. -/
import proofs.«113246_j11072425689287_1_alg».proof.Defs
import proofs.«113246_j11072425689287_1_alg».proof.Proof.Gen.Kernel
import proofs.«113246_j11072425689287_1_alg».proof.Proof.Gen.Kernel.Skeleton
import proofs.«113246_j11072425689287_1_alg».proof.Proof.Gen.Kernel.Launch
import proofs.«113246_j11072425689287_1_alg».proof.Proof.Gen.Kernel.Points
import proofs.«113246_j11072425689287_1_alg».proof.Proof.Gen.Kernel.Frame
import proofs.«113246_j11072425689287_1_alg».proof.Proof.Gen.KernelIdeal
import proofs.«113246_j11072425689287_1_alg».proof.Proof.Gen.KernelIdeal.Skeleton
import proofs.«113246_j11072425689287_1_alg».proof.Proof.Gen.KernelIdeal.Launch
import proofs.«113246_j11072425689287_1_alg».proof.Proof.Gen.KernelIdeal.Points
import proofs.«113246_j11072425689287_1_alg».proof.Proof.Gen.KernelIdeal.Frame
import proofs.«113246_j11072425689287_1_alg».proof.Proof.Gen.KernelIdeal.Value
import proofs.«113246_j11072425689287_1_alg».proof.Proof.Gen.ReferenceIdeal
import proofs.«113246_j11072425689287_1_alg».proof.Proof.Gen.Pre_finite_inputs
import proofs.«113246_j11072425689287_1_alg».proof.Proof.KernelValue
import proofs.«113246_j11072425689287_1_alg».proof.Proof.RefRun
import proofs.«113246_j11072425689287_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments the kernel's result array ends at `Spec.G` of the arguments and the
    reference's at its composed term of the same arguments, which is `Spec.G` of them too. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefValue.refTerm_eq, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
